-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512x16 : Shape := ⟨4, ![16, 512, 512, 16]⟩
abbrev S16x384x384x2 : Shape := ⟨4, ![16, 384, 384, 2]⟩
abbrev S_ : Shape := ⟨0, ![]⟩

class Facts : Prop where
  bcast_S_S16x512x512x16 : S_.BroadcastsInDim S16x512x512x16 (![] : Fin 0 → Fin S16x512x512x16.rank)
  reducesTo_S16x512x512x16_S_d0_1_2_3 : S16x512x512x16.ReducesTo [0, 1, 2, 3] S_
  h_S_ : 0 < S_.numel
  bcast_S_S16x384x384x2 : S_.BroadcastsInDim S16x384x384x2 (![] : Fin 0 → Fin S16x384x384x2.rank)
  reducesTo_S16x384x384x2_S_d0_1_2_3 : S16x384x384x2.ReducesTo [0, 1, 2, 3] S_

variable [Facts]

def fn {F : FTy → Type} [FloatOps F] (main_arg0 : FVec F S16x512x512x16 .f32) (main_arg1 : FVec F S16x384x384x2 .f32) : IVec S_ 1 :=
  let main_v0 : FVec F S16x512x512x16 .f32 := Host.absf main_arg0
  let main_cst : FVec F S_ .f32 := constant S_ .f32 0x7F800000#32
  let main_v1 : FVec F S16x512x512x16 .f32 := broadcastInDim S16x512x512x16 ![] bcast_S_S16x512x512x16 main_cst
  let main_v2 : IVec S16x512x512x16 1 := cmpf .olt main_v0 main_v1
  let main_c : IVec S_ 1 := constantI S_ 1 1#1
  let main_v3 : IVec S_ 1 := (fun x v => Host.reduce IntOp.andi x v reducesTo_S16x512x512x16_S_d0_1_2_3 h_S_) main_v2 main_c
  let main_v4 : FVec F S16x384x384x2 .f32 := Host.absf main_arg1
  let main_cst_0 : FVec F S_ .f32 := constant S_ .f32 0x7F800000#32
  let main_v5 : FVec F S16x384x384x2 .f32 := broadcastInDim S16x384x384x2 ![] bcast_S_S16x384x384x2 main_cst_0
  let main_v6 : IVec S16x384x384x2 1 := cmpf .olt main_v4 main_v5
  let main_c_1 : IVec S_ 1 := constantI S_ 1 1#1
  let main_v7 : IVec S_ 1 := (fun x v => Host.reduce IntOp.andi x v reducesTo_S16x384x384x2_S_d0_1_2_3 h_S_) main_v6 main_c_1
  let main_v8 : IVec S_ 1 := andi main_v3 main_v7
  main_v8
-- ==== Kernel.lean ====
abbrev S16x512x512x16 : Shape := ⟨4, ![16, 512, 512, 16]⟩
abbrev S16x384x384x2 : Shape := ⟨4, ![16, 384, 384, 2]⟩
abbrev S16x384x384x1 : Shape := ⟨4, ![16, 384, 384, 1]⟩
abbrev S16x384x384 : Shape := ⟨3, ![16, 384, 384]⟩
abbrev S_ : Shape := ⟨0, ![]⟩
abbrev S16 : Shape := ⟨1, ![16]⟩
abbrev S16x1x1 : Shape := ⟨3, ![16, 1, 1]⟩
abbrev S16x384x384x3 : Shape := ⟨4, ![16, 384, 384, 3]⟩
abbrev S16x384x384x16 : Shape := ⟨4, ![16, 384, 384, 16]⟩
abbrev S1x96x384x16 : Shape := ⟨4, ![1, 96, 384, 16]⟩
abbrev S1x96x384 : Shape := ⟨3, ![1, 96, 384]⟩
abbrev S1x96x384x1 : Shape := ⟨4, ![1, 96, 384, 1]⟩

abbrev nBuf : Space → Nat
  | .hbm => 197
  | .vmem => 18
  | .smem => 0
  | _ => 0

abbrev hbmTy0_0 (i : Nat) : BufTy := match i % 128 with
  | 0 => ⟨S16x512x512x16, .f32⟩
  | 1 => ⟨S16x384x384x2, .f32⟩
  | 2 => ⟨S16x384x384x1, .f32⟩
  | 3 => ⟨S16x384x384, .f32⟩
  | 4 => ⟨S_, .f32⟩
  | 5 => ⟨S16x384x384, .f32⟩
  | 6 => ⟨S16x384x384, .f32⟩
  | 7 => ⟨S_, .f32⟩
  | 8 => ⟨S16x384x384, .f32⟩
  | 9 => ⟨S16x384x384, .f32⟩
  | 10 => ⟨S_, .f32⟩
  | 11 => ⟨S16x384x384, .f32⟩
  | 12 => ⟨S16x384x384, .f32⟩
  | 13 => ⟨S16x384x384x1, .f32⟩
  | 14 => ⟨S16x384x384, .f32⟩
  | 15 => ⟨S_, .f32⟩
  | 16 => ⟨S16x384x384, .f32⟩
  | 17 => ⟨S16x384x384, .f32⟩
  | 18 => ⟨S_, .f32⟩
  | 19 => ⟨S16x384x384, .f32⟩
  | 20 => ⟨S16x384x384, .f32⟩
  | 21 => ⟨S_, .f32⟩
  | 22 => ⟨S16x384x384, .f32⟩
  | 23 => ⟨S16x384x384, .f32⟩
  | 24 => ⟨S16x384x384, .f32⟩
  | 25 => ⟨S16x384x384, .f32⟩
  | 26 => ⟨S_, .f32⟩
  | 27 => ⟨S16x384x384, .f32⟩
  | 28 => ⟨S16x384x384, .f32⟩
  | 29 => ⟨S_, .f32⟩
  | 30 => ⟨S16x384x384, .f32⟩
  | 31 => ⟨S16x384x384, .f32⟩
  | 32 => ⟨S16x384x384, .f32⟩
  | 33 => ⟨S16x384x384, .f32⟩
  | 34 => ⟨S16x384x384, .f32⟩
  | 35 => ⟨S16x384x384, .f32⟩
  | 36 => ⟨S16x384x384, .f32⟩
  | 37 => ⟨S16x384x384, .f32⟩
  | 38 => ⟨S16x384x384, .f32⟩
  | 39 => ⟨S16x384x384, .f32⟩
  | 40 => ⟨S16x384x384, .f32⟩
  | 41 => ⟨S16x384x384, .f32⟩
  | 42 => ⟨S16x384x384, .f32⟩
  | 43 => ⟨S16x384x384, .f32⟩
  | 44 => ⟨S16x384x384, .i32⟩
  | 45 => ⟨S_, .i32⟩
  | 46 => ⟨S_, .i32⟩
  | 47 => ⟨S_, .i32⟩
  | 48 => ⟨S16x384x384, .i32⟩
  | 49 => ⟨S16x384x384, .i32⟩
  | 50 => ⟨S_, .i32⟩
  | 51 => ⟨S16x384x384, .i32⟩
  | 52 => ⟨S16x384x384, .i32⟩
  | 53 => ⟨S16x384x384, .i32⟩
  | 54 => ⟨S_, .i32⟩
  | 55 => ⟨S_, .i32⟩
  | 56 => ⟨S_, .i32⟩
  | 57 => ⟨S16x384x384, .i32⟩
  | 58 => ⟨S16x384x384, .i32⟩
  | 59 => ⟨S_, .i32⟩
  | 60 => ⟨S16x384x384, .i32⟩
  | 61 => ⟨S16x384x384, .i32⟩
  | 62 => ⟨S16x384x384, .i32⟩
  | 63 => ⟨S_, .i32⟩
  | 64 => ⟨S_, .i32⟩
  | 65 => ⟨S_, .i32⟩
  | 66 => ⟨S16x384x384, .i32⟩
  | 67 => ⟨S16x384x384, .i32⟩
  | 68 => ⟨S_, .i32⟩
  | 69 => ⟨S16x384x384, .i32⟩
  | 70 => ⟨S16x384x384, .i32⟩
  | 71 => ⟨S16x384x384, .i32⟩
  | 72 => ⟨S_, .i32⟩
  | 73 => ⟨S_, .i32⟩
  | 74 => ⟨S_, .i32⟩
  | 75 => ⟨S16x384x384, .i32⟩
  | 76 => ⟨S16x384x384, .i32⟩
  | 77 => ⟨S_, .i32⟩
  | 78 => ⟨S16x384x384, .i32⟩
  | 79 => ⟨S16x384x384, .i32⟩
  | 80 => ⟨S16, .i32⟩
  | 81 => ⟨S16x1x1, .i32⟩
  | 82 => ⟨S_, .i32⟩
  | 83 => ⟨S16x1x1, .i32⟩
  | 84 => ⟨S16x1x1, .i1⟩
  | 85 => ⟨S_, .i32⟩
  | 86 => ⟨S16x1x1, .i32⟩
  | 87 => ⟨S16x1x1, .i32⟩
  | 88 => ⟨S16x1x1, .i32⟩
  | 89 => ⟨S_, .i32⟩
  | 90 => ⟨S16x384x384, .i32⟩
  | 91 => ⟨S16x384x384, .i1⟩
  | 92 => ⟨S_, .i32⟩
  | 93 => ⟨S16x384x384, .i32⟩
  | 94 => ⟨S16x384x384, .i32⟩
  | 95 => ⟨S16x384x384, .i32⟩
  | 96 => ⟨S_, .i32⟩
  | 97 => ⟨S16x384x384, .i32⟩
  | 98 => ⟨S16x384x384, .i1⟩
  | 99 => ⟨S_, .i32⟩
  | 100 => ⟨S16x384x384, .i32⟩
  | 101 => ⟨S16x384x384, .i32⟩
  | 102 => ⟨S16x384x384, .i32⟩
  | 103 => ⟨S16x384x384, .i32⟩
  | 104 => ⟨S16x384x384x1, .i32⟩
  | 105 => ⟨S16x384x384x1, .i32⟩
  | 106 => ⟨S16x384x384x1, .i32⟩
  | 107 => ⟨S16x384x384x3, .i32⟩
  | 108 => ⟨S16x384x384x16, .f32⟩
  | 109 => ⟨S16, .i32⟩
  | 110 => ⟨S16x1x1, .i32⟩
  | 111 => ⟨S_, .i32⟩
  | 112 => ⟨S16x1x1, .i32⟩
  | 113 => ⟨S16x1x1, .i1⟩
  | 114 => ⟨S_, .i32⟩
  | 115 => ⟨S16x1x1, .i32⟩
  | 116 => ⟨S16x1x1, .i32⟩
  | 117 => ⟨S16x1x1, .i32⟩
  | 118 => ⟨S_, .i32⟩
  | 119 => ⟨S16x384x384, .i32⟩
  | 120 => ⟨S16x384x384, .i1⟩
  | 121 => ⟨S_, .i32⟩
  | 122 => ⟨S16x384x384, .i32⟩
  | 123 => ⟨S16x384x384, .i32⟩
  | 124 => ⟨S16x384x384, .i32⟩
  | 125 => ⟨S_, .i32⟩
  | 126 => ⟨S16x384x384, .i32⟩
  | 127 => ⟨S16x384x384, .i1⟩
  | _ => ⟨S16x512x512x16, .f32⟩

abbrev hbmTy0_1 (i : Nat) : BufTy := match i % 128 with
  | 0 => ⟨S_, .i32⟩
  | 1 => ⟨S16x384x384, .i32⟩
  | 2 => ⟨S16x384x384, .i32⟩
  | 3 => ⟨S16x384x384, .i32⟩
  | 4 => ⟨S16x384x384, .i32⟩
  | 5 => ⟨S16x384x384x1, .i32⟩
  | 6 => ⟨S16x384x384x1, .i32⟩
  | 7 => ⟨S16x384x384x1, .i32⟩
  | 8 => ⟨S16x384x384x3, .i32⟩
  | 9 => ⟨S16x384x384x16, .f32⟩
  | 10 => ⟨S16, .i32⟩
  | 11 => ⟨S16x1x1, .i32⟩
  | 12 => ⟨S_, .i32⟩
  | 13 => ⟨S16x1x1, .i32⟩
  | 14 => ⟨S16x1x1, .i1⟩
  | 15 => ⟨S_, .i32⟩
  | 16 => ⟨S16x1x1, .i32⟩
  | 17 => ⟨S16x1x1, .i32⟩
  | 18 => ⟨S16x1x1, .i32⟩
  | 19 => ⟨S_, .i32⟩
  | 20 => ⟨S16x384x384, .i32⟩
  | 21 => ⟨S16x384x384, .i1⟩
  | 22 => ⟨S_, .i32⟩
  | 23 => ⟨S16x384x384, .i32⟩
  | 24 => ⟨S16x384x384, .i32⟩
  | 25 => ⟨S16x384x384, .i32⟩
  | 26 => ⟨S_, .i32⟩
  | 27 => ⟨S16x384x384, .i32⟩
  | 28 => ⟨S16x384x384, .i1⟩
  | 29 => ⟨S_, .i32⟩
  | 30 => ⟨S16x384x384, .i32⟩
  | 31 => ⟨S16x384x384, .i32⟩
  | 32 => ⟨S16x384x384, .i32⟩
  | 33 => ⟨S16x384x384, .i32⟩
  | 34 => ⟨S16x384x384x1, .i32⟩
  | 35 => ⟨S16x384x384x1, .i32⟩
  | 36 => ⟨S16x384x384x1, .i32⟩
  | 37 => ⟨S16x384x384x3, .i32⟩
  | 38 => ⟨S16x384x384x16, .f32⟩
  | 39 => ⟨S16, .i32⟩
  | 40 => ⟨S16x1x1, .i32⟩
  | 41 => ⟨S_, .i32⟩
  | 42 => ⟨S16x1x1, .i32⟩
  | 43 => ⟨S16x1x1, .i1⟩
  | 44 => ⟨S_, .i32⟩
  | 45 => ⟨S16x1x1, .i32⟩
  | 46 => ⟨S16x1x1, .i32⟩
  | 47 => ⟨S16x1x1, .i32⟩
  | 48 => ⟨S_, .i32⟩
  | 49 => ⟨S16x384x384, .i32⟩
  | 50 => ⟨S16x384x384, .i1⟩
  | 51 => ⟨S_, .i32⟩
  | 52 => ⟨S16x384x384, .i32⟩
  | 53 => ⟨S16x384x384, .i32⟩
  | 54 => ⟨S16x384x384, .i32⟩
  | 55 => ⟨S_, .i32⟩
  | 56 => ⟨S16x384x384, .i32⟩
  | 57 => ⟨S16x384x384, .i1⟩
  | 58 => ⟨S_, .i32⟩
  | 59 => ⟨S16x384x384, .i32⟩
  | 60 => ⟨S16x384x384, .i32⟩
  | 61 => ⟨S16x384x384, .i32⟩
  | 62 => ⟨S16x384x384, .i32⟩
  | 63 => ⟨S16x384x384x1, .i32⟩
  | 64 => ⟨S16x384x384x1, .i32⟩
  | 65 => ⟨S16x384x384x1, .i32⟩
  | 66 => ⟨S16x384x384x3, .i32⟩
  | 67 => ⟨S16x384x384x16, .f32⟩
  | 68 => ⟨S16x384x384x16, .f32⟩
  | _ => ⟨S16x512x512x16, .f32⟩

abbrev hbmTy (i : Nat) : BufTy := match i / 128 with
  | 0 => hbmTy0_0 i
  | 1 => hbmTy0_1 i
  | _ => ⟨S16x512x512x16, .f32⟩

abbrev bufTy : (tb : Table) → Fin (tcTables nBuf tb) → BufTy
  | .hbm, ⟨i, _⟩ => hbmTy i
  | .local _ .vmem, ⟨0, _⟩ => ⟨S1x96x384x16, .f32⟩
  | .local _ .vmem, ⟨1, _⟩ => ⟨S1x96x384x16, .f32⟩
  | .local _ .vmem, ⟨2, _⟩ => ⟨S1x96x384x16, .f32⟩
  | .local _ .vmem, ⟨3, _⟩ => ⟨S1x96x384x16, .f32⟩
  | .local _ .vmem, ⟨4, _⟩ => ⟨S1x96x384x16, .f32⟩
  | .local _ .vmem, ⟨5, _⟩ => ⟨S1x96x384x16, .f32⟩
  | .local _ .vmem, ⟨6, _⟩ => ⟨S1x96x384x16, .f32⟩
  | .local _ .vmem, ⟨7, _⟩ => ⟨S1x96x384x16, .f32⟩
  | .local _ .vmem, ⟨8, _⟩ => ⟨S1x96x384, .f32⟩
  | .local _ .vmem, ⟨9, _⟩ => ⟨S1x96x384, .f32⟩
  | .local _ .vmem, ⟨10, _⟩ => ⟨S1x96x384, .f32⟩
  | .local _ .vmem, ⟨11, _⟩ => ⟨S1x96x384, .f32⟩
  | .local _ .vmem, ⟨12, _⟩ => ⟨S1x96x384, .f32⟩
  | .local _ .vmem, ⟨13, _⟩ => ⟨S1x96x384, .f32⟩
  | .local _ .vmem, ⟨14, _⟩ => ⟨S1x96x384, .f32⟩
  | .local _ .vmem, ⟨15, _⟩ => ⟨S1x96x384, .f32⟩
  | .local _ .vmem, ⟨16, _⟩ => ⟨S1x96x384x16, .f32⟩
  | .local _ .vmem, ⟨17, _⟩ => ⟨S1x96x384x16, .f32⟩
  | _, _ => ⟨S16x512x512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_c_7 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_c_9 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_c_11 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v39 : Ref sig .tc := ⟨.hbm, 70, rfl⟩
abbrev main_v40 : Ref sig .tc := ⟨.hbm, 71, rfl⟩
abbrev main_c_12 : Ref sig .tc := ⟨.hbm, 72, rfl⟩
abbrev main_c_13 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_14 : Ref sig .tc := ⟨.hbm, 82, rfl⟩
abbrev main_v44 : Ref sig .tc := ⟨.hbm, 83, rfl⟩
abbrev main_v45 : Ref sig .tc := ⟨.hbm, 84, rfl⟩
abbrev main_c_15 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c_16 : Ref sig .tc := ⟨.hbm, 89, rfl⟩
abbrev main_v49 : Ref sig .tc := ⟨.hbm, 90, rfl⟩
abbrev main_v50 : Ref sig .tc := ⟨.hbm, 91, rfl⟩
abbrev main_c_17 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_c_18 : Ref sig .tc := ⟨.hbm, 96, rfl⟩
abbrev main_v54 : Ref sig .tc := ⟨.hbm, 97, rfl⟩
abbrev main_v55 : Ref sig .tc := ⟨.hbm, 98, rfl⟩
abbrev main_c_19 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_c_20 : Ref sig .tc := ⟨.hbm, 111, rfl⟩
abbrev main_v67 : Ref sig .tc := ⟨.hbm, 112, rfl⟩
abbrev main_v68 : Ref sig .tc := ⟨.hbm, 113, rfl⟩
abbrev main_c_21 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_22 : Ref sig .tc := ⟨.hbm, 118, rfl⟩
abbrev main_v72 : Ref sig .tc := ⟨.hbm, 119, rfl⟩
abbrev main_v73 : Ref sig .tc := ⟨.hbm, 120, rfl⟩
abbrev main_c_23 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_24 : Ref sig .tc := ⟨.hbm, 125, rfl⟩
abbrev main_v77 : Ref sig .tc := ⟨.hbm, 126, rfl⟩
abbrev main_v78 : Ref sig .tc := ⟨.hbm, 127, rfl⟩
abbrev main_c_25 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_c_26 : Ref sig .tc := ⟨.hbm, 140, rfl⟩
abbrev main_v90 : Ref sig .tc := ⟨.hbm, 141, rfl⟩
abbrev main_v91 : Ref sig .tc := ⟨.hbm, 142, rfl⟩
abbrev main_c_27 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_c_28 : Ref sig .tc := ⟨.hbm, 147, rfl⟩
abbrev main_v95 : Ref sig .tc := ⟨.hbm, 148, rfl⟩
abbrev main_v96 : Ref sig .tc := ⟨.hbm, 149, rfl⟩
abbrev main_c_29 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_30 : Ref sig .tc := ⟨.hbm, 154, rfl⟩
abbrev main_v100 : Ref sig .tc := ⟨.hbm, 155, rfl⟩
abbrev main_v101 : Ref sig .tc := ⟨.hbm, 156, rfl⟩
abbrev main_c_31 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_c_32 : Ref sig .tc := ⟨.hbm, 169, rfl⟩
abbrev main_v113 : Ref sig .tc := ⟨.hbm, 170, rfl⟩
abbrev main_v114 : Ref sig .tc := ⟨.hbm, 171, rfl⟩
abbrev main_c_33 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_c_34 : Ref sig .tc := ⟨.hbm, 176, rfl⟩
abbrev main_v118 : Ref sig .tc := ⟨.hbm, 177, rfl⟩
abbrev main_v119 : Ref sig .tc := ⟨.hbm, 178, rfl⟩
abbrev main_c_35 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_c_36 : Ref sig .tc := ⟨.hbm, 183, rfl⟩
abbrev main_v123 : Ref sig .tc := ⟨.hbm, 184, rfl⟩
abbrev main_v124 : Ref sig .tc := ⟨.hbm, 185, rfl⟩
abbrev main_c_37 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x96x384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x384x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x384x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x384x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x96x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x96x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x96x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x96x384x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S16x384x384x2_S16x384x384x1_0_0_0_0 : S16x384x384x2.Slices ![0, 0, 0, 0] S16x384x384x1
  shapeCasts_S16x384x384x1_S16x384x384 : S16x384x384x1.ShapeCasts S16x384x384
  bcast_S_S16x384x384 : S_.BroadcastsInDim S16x384x384 (![] : Fin 0 → Fin S16x384x384.rank)
  slices_S16x384x384x2_S16x384x384x1_0_0_0_1 : S16x384x384x2.Slices ![0, 0, 0, 1] S16x384x384x1
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x384x384_0_1_2 : S16x1x1.BroadcastsInDim S16x384x384 (![0, 1, 2] : Fin 3 → Fin S16x384x384.rank)
  bcast_S16x384x384_S16x384x384x1_0_1_2 : S16x384x384.BroadcastsInDim S16x384x384x1 (![0, 1, 2] : Fin 3 → Fin S16x384x384x1.rank)
  concatenates_S16x384x384x1_S16x384x384x1_S16x384x384x1_S16x384x384x3_d3 : Shape.Concatenates [S16x384x384x1, S16x384x384x1, S16x384x384x1] S16x384x384x3 3
  inb_S1x96x384_S1x96x384_0_0_0 : ∀ a, (![0, 0, 0] : Fin 3 → Nat) a + S1x96x384.size a ≤ S1x96x384.size a
  h_S1x96x384 : 0 < S1x96x384.numel
  shapeCasts_S1x96x384_S1x96x384 : S1x96x384.ShapeCasts S1x96x384
  shapeCasts_S1x96x384_S1x96x384x1 : S1x96x384.ShapeCasts S1x96x384x1
  inb_S1x96x384x16_S1x96x384x16_0_0_0_0 : ∀ a, (![0, 0, 0, 0] : Fin 4 → Nat) a + S1x96x384x16.size a ≤ S1x96x384x16.size a
  h_S1x96x384x16 : 0 < S1x96x384x16.numel
  shapeCasts_S1x96x384x16_S1x96x384x16 : S1x96x384x16.ShapeCasts S1x96x384x16
  broadcasts_S1x96x384x1_S1x96x384x16 : S1x96x384x1.Broadcasts S1x96x384x16
  gather_S16x512x512x16_S16x384x384x3_S16x384x384x16_3_012_n_n_012_3_11116_wf : GatherDims.WF S16x512x512x16 S16x384x384x3 S16x384x384x16 [3] [0, 1, 2] [] [0, 1, 2] [] 3 ![1, 1, 1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x384x16.size a ≤ S16x384x384x16.size a
  hwx0_0 : ∀ i : grid0.Coords, EltTy.bits .f32 = 32 ∨ (Rect.block (s := S16x384x384x16) S1x96x384x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x384x16.size a ≤ S16x384x384x16.size a
  hwx0_1 : ∀ i : grid0.Coords, EltTy.bits .f32 = 32 ∨ (Rect.block (s := S16x384x384x16) S1x96x384x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x96x384x16.size a ≤ S16x384x384x16.size a
  hwx0_2 : ∀ i : grid0.Coords, EltTy.bits .f32 = 32 ∨ (Rect.block (s := S16x384x384x16) S1x96x384x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x96x384x16.size a ≤ S16x384x384x16.size a
  hwx0_3 : ∀ i : grid0.Coords, EltTy.bits .f32 = 32 ∨ (Rect.block (s := S16x384x384x16) S1x96x384x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x96x384.size a ≤ S16x384x384.size a
  hwx0_4 : ∀ i : grid0.Coords, EltTy.bits .f32 = 32 ∨ (Rect.block (s := S16x384x384) S1x96x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x96x384.size a ≤ S16x384x384.size a
  hwx0_5 : ∀ i : grid0.Coords, EltTy.bits .f32 = 32 ∨ (Rect.block (s := S16x384x384) S1x96x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x96x384.size a ≤ S16x384x384.size a
  hwx0_6 : ∀ i : grid0.Coords, EltTy.bits .f32 = 32 ∨ (Rect.block (s := S16x384x384) S1x96x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x96x384.size a ≤ S16x384x384.size a
  hwx0_7 : ∀ i : grid0.Coords, EltTy.bits .f32 = 32 ∨ (Rect.block (s := S16x384x384) S1x96x384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x96x384x16.size a ≤ S16x384x384x16.size a
  hwx0_8 : ∀ i : grid0.Coords, EltTy.bits .f32 = 32 ∨ (Rect.block (s := S16x384x384x16) S1x96x384x16.size (cc0_transform_8 i) (hinb0_8 i)).WholeWords (EltTy.packing .f32)

variable [Facts₀]

def gather_S16x512x512x16_S16x384x384x3_S16x384x384x16_3_012_n_n_012_3_11116 : GatherDims S16x512x512x16 S16x384x384x3 S16x384x384x16 where
  offsetDims := [3]
  collapsedSliceDims := [0, 1, 2]
  operandBatchingDims := []
  startIndicesBatchingDims := []
  startIndexMap := [0, 1, 2]
  indexVectorDim := 3
  sliceSizes := ![1, 1, 1, 16]
  wf := gather_S16x512x512x16_S16x384x384x3_S16x384x384x16_3_012_n_n_012_3_11116_wf

abbrev win0_0 : Pipeline.Window sig grid0 :=
  Pipeline.Window.ofSpec (Memref.whole main_v64) S1x96x384x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v87) S1x96x384x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v110) S1x96x384x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v133) S1x96x384x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x96x384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x96x384.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x96x384.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x96x384.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v134) S1x96x384x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x512x512x16 : Shape := ⟨4, ![16, 512, 512, 16]⟩
abbrev S16x384x384x2 : Shape := ⟨4, ![16, 384, 384, 2]⟩
abbrev S16x384x384x1 : Shape := ⟨4, ![16, 384, 384, 1]⟩
abbrev S16x384x384 : Shape := ⟨3, ![16, 384, 384]⟩
abbrev S_ : Shape := ⟨0, ![]⟩
abbrev S16 : Shape := ⟨1, ![16]⟩
abbrev S16x1x1 : Shape := ⟨3, ![16, 1, 1]⟩
abbrev S16x384x384x3 : Shape := ⟨4, ![16, 384, 384, 3]⟩
abbrev S16x384x384x16 : Shape := ⟨4, ![16, 384, 384, 16]⟩

abbrev nBuf : Space → Nat
  | .hbm => 211
  | .vmem => 0
  | .smem => 0
  | _ => 0

abbrev hbmTy0_0 (i : Nat) : BufTy := match i % 128 with
  | 0 => ⟨S16x512x512x16, .f32⟩
  | 1 => ⟨S16x384x384x2, .f32⟩
  | 2 => ⟨S16x384x384x1, .f32⟩
  | 3 => ⟨S16x384x384, .f32⟩
  | 4 => ⟨S_, .f32⟩
  | 5 => ⟨S16x384x384, .f32⟩
  | 6 => ⟨S16x384x384, .f32⟩
  | 7 => ⟨S_, .f32⟩
  | 8 => ⟨S16x384x384, .f32⟩
  | 9 => ⟨S16x384x384, .f32⟩
  | 10 => ⟨S_, .f32⟩
  | 11 => ⟨S16x384x384, .f32⟩
  | 12 => ⟨S16x384x384, .f32⟩
  | 13 => ⟨S16x384x384x1, .f32⟩
  | 14 => ⟨S16x384x384, .f32⟩
  | 15 => ⟨S_, .f32⟩
  | 16 => ⟨S16x384x384, .f32⟩
  | 17 => ⟨S16x384x384, .f32⟩
  | 18 => ⟨S_, .f32⟩
  | 19 => ⟨S16x384x384, .f32⟩
  | 20 => ⟨S16x384x384, .f32⟩
  | 21 => ⟨S_, .f32⟩
  | 22 => ⟨S16x384x384, .f32⟩
  | 23 => ⟨S16x384x384, .f32⟩
  | 24 => ⟨S16x384x384, .f32⟩
  | 25 => ⟨S16x384x384, .f32⟩
  | 26 => ⟨S_, .f32⟩
  | 27 => ⟨S16x384x384, .f32⟩
  | 28 => ⟨S16x384x384, .f32⟩
  | 29 => ⟨S_, .f32⟩
  | 30 => ⟨S16x384x384, .f32⟩
  | 31 => ⟨S16x384x384, .f32⟩
  | 32 => ⟨S16x384x384, .f32⟩
  | 33 => ⟨S16x384x384, .f32⟩
  | 34 => ⟨S16x384x384, .f32⟩
  | 35 => ⟨S16x384x384, .f32⟩
  | 36 => ⟨S16x384x384, .f32⟩
  | 37 => ⟨S16x384x384, .f32⟩
  | 38 => ⟨S16x384x384, .f32⟩
  | 39 => ⟨S16x384x384, .f32⟩
  | 40 => ⟨S16x384x384, .f32⟩
  | 41 => ⟨S16x384x384, .f32⟩
  | 42 => ⟨S16x384x384, .f32⟩
  | 43 => ⟨S16x384x384, .f32⟩
  | 44 => ⟨S16x384x384, .i32⟩
  | 45 => ⟨S_, .i32⟩
  | 46 => ⟨S_, .i32⟩
  | 47 => ⟨S_, .i32⟩
  | 48 => ⟨S16x384x384, .i32⟩
  | 49 => ⟨S16x384x384, .i32⟩
  | 50 => ⟨S_, .i32⟩
  | 51 => ⟨S16x384x384, .i32⟩
  | 52 => ⟨S16x384x384, .i32⟩
  | 53 => ⟨S16x384x384, .i32⟩
  | 54 => ⟨S_, .i32⟩
  | 55 => ⟨S_, .i32⟩
  | 56 => ⟨S_, .i32⟩
  | 57 => ⟨S16x384x384, .i32⟩
  | 58 => ⟨S16x384x384, .i32⟩
  | 59 => ⟨S_, .i32⟩
  | 60 => ⟨S16x384x384, .i32⟩
  | 61 => ⟨S16x384x384, .i32⟩
  | 62 => ⟨S16x384x384, .i32⟩
  | 63 => ⟨S_, .i32⟩
  | 64 => ⟨S_, .i32⟩
  | 65 => ⟨S_, .i32⟩
  | 66 => ⟨S16x384x384, .i32⟩
  | 67 => ⟨S16x384x384, .i32⟩
  | 68 => ⟨S_, .i32⟩
  | 69 => ⟨S16x384x384, .i32⟩
  | 70 => ⟨S16x384x384, .i32⟩
  | 71 => ⟨S16x384x384, .i32⟩
  | 72 => ⟨S_, .i32⟩
  | 73 => ⟨S_, .i32⟩
  | 74 => ⟨S_, .i32⟩
  | 75 => ⟨S16x384x384, .i32⟩
  | 76 => ⟨S16x384x384, .i32⟩
  | 77 => ⟨S_, .i32⟩
  | 78 => ⟨S16x384x384, .i32⟩
  | 79 => ⟨S16x384x384, .i32⟩
  | 80 => ⟨S16, .i32⟩
  | 81 => ⟨S16x1x1, .i32⟩
  | 82 => ⟨S_, .i32⟩
  | 83 => ⟨S16x1x1, .i32⟩
  | 84 => ⟨S16x1x1, .i1⟩
  | 85 => ⟨S_, .i32⟩
  | 86 => ⟨S16x1x1, .i32⟩
  | 87 => ⟨S16x1x1, .i32⟩
  | 88 => ⟨S16x1x1, .i32⟩
  | 89 => ⟨S_, .i32⟩
  | 90 => ⟨S16x384x384, .i32⟩
  | 91 => ⟨S16x384x384, .i1⟩
  | 92 => ⟨S_, .i32⟩
  | 93 => ⟨S16x384x384, .i32⟩
  | 94 => ⟨S16x384x384, .i32⟩
  | 95 => ⟨S16x384x384, .i32⟩
  | 96 => ⟨S_, .i32⟩
  | 97 => ⟨S16x384x384, .i32⟩
  | 98 => ⟨S16x384x384, .i1⟩
  | 99 => ⟨S_, .i32⟩
  | 100 => ⟨S16x384x384, .i32⟩
  | 101 => ⟨S16x384x384, .i32⟩
  | 102 => ⟨S16x384x384, .i32⟩
  | 103 => ⟨S16x384x384, .i32⟩
  | 104 => ⟨S16x384x384x1, .i32⟩
  | 105 => ⟨S16x384x384x1, .i32⟩
  | 106 => ⟨S16x384x384x1, .i32⟩
  | 107 => ⟨S16x384x384x3, .i32⟩
  | 108 => ⟨S16x384x384x16, .f32⟩
  | 109 => ⟨S16, .i32⟩
  | 110 => ⟨S16x1x1, .i32⟩
  | 111 => ⟨S_, .i32⟩
  | 112 => ⟨S16x1x1, .i32⟩
  | 113 => ⟨S16x1x1, .i1⟩
  | 114 => ⟨S_, .i32⟩
  | 115 => ⟨S16x1x1, .i32⟩
  | 116 => ⟨S16x1x1, .i32⟩
  | 117 => ⟨S16x1x1, .i32⟩
  | 118 => ⟨S_, .i32⟩
  | 119 => ⟨S16x384x384, .i32⟩
  | 120 => ⟨S16x384x384, .i1⟩
  | 121 => ⟨S_, .i32⟩
  | 122 => ⟨S16x384x384, .i32⟩
  | 123 => ⟨S16x384x384, .i32⟩
  | 124 => ⟨S16x384x384, .i32⟩
  | 125 => ⟨S_, .i32⟩
  | 126 => ⟨S16x384x384, .i32⟩
  | 127 => ⟨S16x384x384, .i1⟩
  | _ => ⟨S16x512x512x16, .f32⟩

abbrev hbmTy0_1 (i : Nat) : BufTy := match i % 128 with
  | 0 => ⟨S_, .i32⟩
  | 1 => ⟨S16x384x384, .i32⟩
  | 2 => ⟨S16x384x384, .i32⟩
  | 3 => ⟨S16x384x384, .i32⟩
  | 4 => ⟨S16x384x384, .i32⟩
  | 5 => ⟨S16x384x384x1, .i32⟩
  | 6 => ⟨S16x384x384x1, .i32⟩
  | 7 => ⟨S16x384x384x1, .i32⟩
  | 8 => ⟨S16x384x384x3, .i32⟩
  | 9 => ⟨S16x384x384x16, .f32⟩
  | 10 => ⟨S16, .i32⟩
  | 11 => ⟨S16x1x1, .i32⟩
  | 12 => ⟨S_, .i32⟩
  | 13 => ⟨S16x1x1, .i32⟩
  | 14 => ⟨S16x1x1, .i1⟩
  | 15 => ⟨S_, .i32⟩
  | 16 => ⟨S16x1x1, .i32⟩
  | 17 => ⟨S16x1x1, .i32⟩
  | 18 => ⟨S16x1x1, .i32⟩
  | 19 => ⟨S_, .i32⟩
  | 20 => ⟨S16x384x384, .i32⟩
  | 21 => ⟨S16x384x384, .i1⟩
  | 22 => ⟨S_, .i32⟩
  | 23 => ⟨S16x384x384, .i32⟩
  | 24 => ⟨S16x384x384, .i32⟩
  | 25 => ⟨S16x384x384, .i32⟩
  | 26 => ⟨S_, .i32⟩
  | 27 => ⟨S16x384x384, .i32⟩
  | 28 => ⟨S16x384x384, .i1⟩
  | 29 => ⟨S_, .i32⟩
  | 30 => ⟨S16x384x384, .i32⟩
  | 31 => ⟨S16x384x384, .i32⟩
  | 32 => ⟨S16x384x384, .i32⟩
  | 33 => ⟨S16x384x384, .i32⟩
  | 34 => ⟨S16x384x384x1, .i32⟩
  | 35 => ⟨S16x384x384x1, .i32⟩
  | 36 => ⟨S16x384x384x1, .i32⟩
  | 37 => ⟨S16x384x384x3, .i32⟩
  | 38 => ⟨S16x384x384x16, .f32⟩
  | 39 => ⟨S16, .i32⟩
  | 40 => ⟨S16x1x1, .i32⟩
  | 41 => ⟨S_, .i32⟩
  | 42 => ⟨S16x1x1, .i32⟩
  | 43 => ⟨S16x1x1, .i1⟩
  | 44 => ⟨S_, .i32⟩
  | 45 => ⟨S16x1x1, .i32⟩
  | 46 => ⟨S16x1x1, .i32⟩
  | 47 => ⟨S16x1x1, .i32⟩
  | 48 => ⟨S_, .i32⟩
  | 49 => ⟨S16x384x384, .i32⟩
  | 50 => ⟨S16x384x384, .i1⟩
  | 51 => ⟨S_, .i32⟩
  | 52 => ⟨S16x384x384, .i32⟩
  | 53 => ⟨S16x384x384, .i32⟩
  | 54 => ⟨S16x384x384, .i32⟩
  | 55 => ⟨S_, .i32⟩
  | 56 => ⟨S16x384x384, .i32⟩
  | 57 => ⟨S16x384x384, .i1⟩
  | 58 => ⟨S_, .i32⟩
  | 59 => ⟨S16x384x384, .i32⟩
  | 60 => ⟨S16x384x384, .i32⟩
  | 61 => ⟨S16x384x384, .i32⟩
  | 62 => ⟨S16x384x384, .i32⟩
  | 63 => ⟨S16x384x384x1, .i32⟩
  | 64 => ⟨S16x384x384x1, .i32⟩
  | 65 => ⟨S16x384x384x1, .i32⟩
  | 66 => ⟨S16x384x384x3, .i32⟩
  | 67 => ⟨S16x384x384x16, .f32⟩
  | 68 => ⟨S16x384x384x1, .f32⟩
  | 69 => ⟨S16x384x384x16, .f32⟩
  | 70 => ⟨S16x384x384x16, .f32⟩
  | 71 => ⟨S16x384x384x1, .f32⟩
  | 72 => ⟨S16x384x384x16, .f32⟩
  | 73 => ⟨S16x384x384x16, .f32⟩
  | 74 => ⟨S16x384x384x16, .f32⟩
  | 75 => ⟨S16x384x384x1, .f32⟩
  | 76 => ⟨S16x384x384x16, .f32⟩
  | 77 => ⟨S16x384x384x16, .f32⟩
  | 78 => ⟨S16x384x384x16, .f32⟩
  | 79 => ⟨S16x384x384x1, .f32⟩
  | 80 => ⟨S16x384x384x16, .f32⟩
  | 81 => ⟨S16x384x384x16, .f32⟩
  | 82 => ⟨S16x384x384x16, .f32⟩
  | _ => ⟨S16x512x512x16, .f32⟩

abbrev hbmTy (i : Nat) : BufTy := match i / 128 with
  | 0 => hbmTy0_0 i
  | 1 => hbmTy0_1 i
  | _ => ⟨S16x512x512x16, .f32⟩

abbrev bufTy : (tb : Table) → Fin (tcTables nBuf tb) → BufTy
  | .hbm, ⟨i, _⟩ => hbmTy i
  | _, _ => ⟨S16x512x512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_c_7 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_c_9 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_c_11 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v39 : Ref sig .tc := ⟨.hbm, 70, rfl⟩
abbrev main_v40 : Ref sig .tc := ⟨.hbm, 71, rfl⟩
abbrev main_c_12 : Ref sig .tc := ⟨.hbm, 72, rfl⟩
abbrev main_c_13 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_14 : Ref sig .tc := ⟨.hbm, 82, rfl⟩
abbrev main_v44 : Ref sig .tc := ⟨.hbm, 83, rfl⟩
abbrev main_v45 : Ref sig .tc := ⟨.hbm, 84, rfl⟩
abbrev main_c_15 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c_16 : Ref sig .tc := ⟨.hbm, 89, rfl⟩
abbrev main_v49 : Ref sig .tc := ⟨.hbm, 90, rfl⟩
abbrev main_v50 : Ref sig .tc := ⟨.hbm, 91, rfl⟩
abbrev main_c_17 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_c_18 : Ref sig .tc := ⟨.hbm, 96, rfl⟩
abbrev main_v54 : Ref sig .tc := ⟨.hbm, 97, rfl⟩
abbrev main_v55 : Ref sig .tc := ⟨.hbm, 98, rfl⟩
abbrev main_c_19 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_c_20 : Ref sig .tc := ⟨.hbm, 111, rfl⟩
abbrev main_v67 : Ref sig .tc := ⟨.hbm, 112, rfl⟩
abbrev main_v68 : Ref sig .tc := ⟨.hbm, 113, rfl⟩
abbrev main_c_21 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_c_22 : Ref sig .tc := ⟨.hbm, 118, rfl⟩
abbrev main_v72 : Ref sig .tc := ⟨.hbm, 119, rfl⟩
abbrev main_v73 : Ref sig .tc := ⟨.hbm, 120, rfl⟩
abbrev main_c_23 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_24 : Ref sig .tc := ⟨.hbm, 125, rfl⟩
abbrev main_v77 : Ref sig .tc := ⟨.hbm, 126, rfl⟩
abbrev main_v78 : Ref sig .tc := ⟨.hbm, 127, rfl⟩
abbrev main_c_25 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_c_26 : Ref sig .tc := ⟨.hbm, 140, rfl⟩
abbrev main_v90 : Ref sig .tc := ⟨.hbm, 141, rfl⟩
abbrev main_v91 : Ref sig .tc := ⟨.hbm, 142, rfl⟩
abbrev main_c_27 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_c_28 : Ref sig .tc := ⟨.hbm, 147, rfl⟩
abbrev main_v95 : Ref sig .tc := ⟨.hbm, 148, rfl⟩
abbrev main_v96 : Ref sig .tc := ⟨.hbm, 149, rfl⟩
abbrev main_c_29 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_c_30 : Ref sig .tc := ⟨.hbm, 154, rfl⟩
abbrev main_v100 : Ref sig .tc := ⟨.hbm, 155, rfl⟩
abbrev main_v101 : Ref sig .tc := ⟨.hbm, 156, rfl⟩
abbrev main_c_31 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_c_32 : Ref sig .tc := ⟨.hbm, 169, rfl⟩
abbrev main_v113 : Ref sig .tc := ⟨.hbm, 170, rfl⟩
abbrev main_v114 : Ref sig .tc := ⟨.hbm, 171, rfl⟩
abbrev main_c_33 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_c_34 : Ref sig .tc := ⟨.hbm, 176, rfl⟩
abbrev main_v118 : Ref sig .tc := ⟨.hbm, 177, rfl⟩
abbrev main_v119 : Ref sig .tc := ⟨.hbm, 178, rfl⟩
abbrev main_c_35 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_c_36 : Ref sig .tc := ⟨.hbm, 183, rfl⟩
abbrev main_v123 : Ref sig .tc := ⟨.hbm, 184, rfl⟩
abbrev main_v124 : Ref sig .tc := ⟨.hbm, 185, rfl⟩
abbrev main_c_37 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩

abbrev nD : Nat := 1
abbrev τ : Topo := Topo.v7x

variable {F : FTy → Type} [FloatOps F]

class Facts₀ : Prop where
  slices_S16x384x384x2_S16x384x384x1_0_0_0_0 : S16x384x384x2.Slices ![0, 0, 0, 0] S16x384x384x1
  shapeCasts_S16x384x384x1_S16x384x384 : S16x384x384x1.ShapeCasts S16x384x384
  bcast_S_S16x384x384 : S_.BroadcastsInDim S16x384x384 (![] : Fin 0 → Fin S16x384x384.rank)
  slices_S16x384x384x2_S16x384x384x1_0_0_0_1 : S16x384x384x2.Slices ![0, 0, 0, 1] S16x384x384x1
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S16x1x1_S16x384x384_0_1_2 : S16x1x1.BroadcastsInDim S16x384x384 (![0, 1, 2] : Fin 3 → Fin S16x384x384.rank)
  bcast_S16x384x384_S16x384x384x1_0_1_2 : S16x384x384.BroadcastsInDim S16x384x384x1 (![0, 1, 2] : Fin 3 → Fin S16x384x384x1.rank)
  concatenates_S16x384x384x1_S16x384x384x1_S16x384x384x1_S16x384x384x3_d3 : Shape.Concatenates [S16x384x384x1, S16x384x384x1, S16x384x384x1] S16x384x384x3 3
  bcast_S16x384x384x1_S16x384x384x16_0_1_2_3 : S16x384x384x1.BroadcastsInDim S16x384x384x16 (![0, 1, 2, 3] : Fin 4 → Fin S16x384x384x16.rank)
  gather_S16x512x512x16_S16x384x384x3_S16x384x384x16_3_012_n_n_012_3_11116_wf : GatherDims.WF S16x512x512x16 S16x384x384x3 S16x384x384x16 [3] [0, 1, 2] [] [0, 1, 2] [] 3 ![1, 1, 1, 16]

variable [Facts₀]

def gather_S16x512x512x16_S16x384x384x3_S16x384x384x16_3_012_n_n_012_3_11116 : GatherDims S16x512x512x16 S16x384x384x3 S16x384x384x16 where
  offsetDims := [3]
  collapsedSliceDims := [0, 1, 2]
  operandBatchingDims := []
  startIndicesBatchingDims := []
  startIndexMap := [0, 1, 2]
  indexVectorDim := 3
  sliceSizes := ![1, 1, 1, 16]
  wf := gather_S16x512x512x16_S16x384x384x3_S16x384x384x16_3_012_n_n_012_3_11116_wf

class Facts : Prop extends Facts₀ where

variable [Facts]
-- ==== Proof.BlendFrame.lean ====
/-
  The frame of `Kernel`: its @main is a long line of host operations (the bilinear weights, the four corner
  index triples, the four corner gathers) followed by ONE pipelined region that blends the four gathered corner
  arrays with the four weight maps, block by block over a 16 x 4 grid.

  * Up to the region, core `c`'s buffers hold what the host operations leave (`V`); no host operation writes an
    argument array, so both arguments reach the region, and the end of the run, as launched.
  * The body at one grid point loads the eight input blocks whole, combines them pointwise and stores the result
    over the whole output block (it also loads the output block first and discards the value), so the output's
    staging buffer ends at one piece covering it: `blendOut`.
  * The proof data name each input's buffer as its block of the array the region found and the output's as
    `blendOut` of those blocks; the body obligation is the body's triple at the point's staging memrefs; the run
    is the library's one-region frame run over these.
-/
import proofs.«140690_j13065290514713_1_alg».proof.Proof.Gen.Kernel.Launch
import proofs.«140690_j13065290514713_1_alg».proof.Proof.Gen.Kernel.Skeleton
import proofs.«140690_j13065290514713_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Blend

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: what the nine stretches of host operations leave. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main is the host stretches, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data over `V` whose body
    leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data over `V` whose body
    leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data over `V` whose body
    leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, for any proof data over `V` whose body
    leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, for any proof data over `V` whose body
    leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, for any proof data over `V` whose body
    leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, for any proof data over `V` whose body
    leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, for any proof data over `V` whose body
    leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Neither argument is an array of the pipeline, so the frame run's post hands each back at its region-entry
    contents, which are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's accesses: each block whole -/

abbrev rW : Rect S1x96x384 := Rect.unit (s := S1x96x384) ![0, 0, 0] S1x96x384.size inb_S1x96x384_S1x96x384_0_0_0
abbrev rI : Rect S1x96x384x16 := Rect.unit (s := S1x96x384x16) ![0, 0, 0, 0] S1x96x384x16.size inb_S1x96x384x16_S1x96x384x16_0_0_0_0

/-! ## What the body leaves in the output window's buffer -/

/-- The output block after the body, from the eight input blocks (corner blocks `x0 … x3`, weight blocks
    `x4 … x7`): its one store as one piece, the payload the body's arithmetic. -/
def blendOut (x0 x1 x2 x3 : Vec F S1x96x384x16 .f32) (x4 x5 x6 x7 : Vec F S1x96x384 .f32) : Vec F S1x96x384x16 .f32 :=
  View.canon [⟨rI, k0_pay1 (k0_pay2 (View.ld x4 rW) (View.ld x5 rW) (View.ld x6 rW) (View.ld x0 rI) (View.ld x1 rI) (View.ld x2 rI))
    (k0_pay3 (View.ld x7 rW) (View.ld x3 rI))⟩]

/-- The one store covers the block. -/
theorem blendCover (p0 : Vec F S1x96x384x16 .f32) (y : S1x96x384x16.Idx) :
    ∃ pc ∈ ([⟨rI, p0⟩] : List (View.Piece (Elt F) S1x96x384x16 .f32)), y ∈ pc.1.set :=
  View.cover_of_tiled [⟨rI, p0⟩] S1x96x384x16.size (by rfl) y

/-! ## The body's triple -/

set_option maxHeartbeats 1000000 in
/-- The body on whole staging memrefs, the inputs' at contents `xW` and the output's at anything, runs to the
    continuation with the inputs as they were and the output at `blendOut` of the inputs. -/
theorem sound_kernel (c : Dev nD) (E : Set ℕ) (i : grid0.Coords)
    (arg2 : Memref sig .tc .vmem S1x96x384x16 .f32) (harg2 : arg2.IsWhole) (arg3 : Memref sig .tc .vmem S1x96x384x16 .f32) (harg3 : arg3.IsWhole) (arg4 : Memref sig .tc .vmem S1x96x384x16 .f32) (harg4 : arg4.IsWhole) (arg5 : Memref sig .tc .vmem S1x96x384x16 .f32) (harg5 : arg5.IsWhole)
    (arg6 : Memref sig .tc .vmem S1x96x384 .f32) (harg6 : arg6.IsWhole) (arg7 : Memref sig .tc .vmem S1x96x384 .f32) (harg7 : arg7.IsWhole) (arg8 : Memref sig .tc .vmem S1x96x384 .f32) (harg8 : arg8.IsWhole) (arg9 : Memref sig .tc .vmem S1x96x384 .f32) (harg9 : arg9.IsWhole)
    (arg10 : Memref sig .tc .vmem S1x96x384x16 .f32) (harg10 : arg10.IsWhole)
    (x0 x1 x2 x3 : Vec F S1x96x384x16 .f32) (x4 x5 x6 x7 : Vec F S1x96x384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (blendOut x0 x1 x2 x3 x4 x5 x6 x7)) -∗ K ⟨⟩))
      ⊢ wp frame (wpE (defs₀ (F := F)) Variants.none c none) E (cc0__blend_kernel i arg2 harg2 arg3 harg3 arg4 harg4 arg5 harg5 arg6 harg6 arg7 harg7 arg8 harg8 arg9 harg9 arg10 harg10) K := by
  simp only [cc0__blend_kernel_eq_skeleton]; unfold cc0__blend_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (blendCover _)

/-! ## The pipeline's proof data -/

/-- The proof data on core `c`: the arrays as the region finds them; after the body at point `t` each input's
    buffer at its block and the output's at `blendOut` of the input blocks; the plain region invariant; full
    shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blendOut (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = blendOut (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant
    and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each array of the
    pipeline ending at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Blend

end
-- ==== Proof.BlendFrameIdeal.lean ====
/-
  The frame of `KernelIdeal`: its @main is a long line of host operations (the bilinear weights, the four corner
  index triples, the four corner gathers) followed by ONE pipelined region that blends the four gathered corner
  arrays with the four weight maps, block by block over a 16 x 4 grid.

  * Up to the region, core `c`'s buffers hold what the host operations leave (`V`); no host operation writes an
    argument array, so both arguments reach the region, and the end of the run, as launched.
  * The body at one grid point loads the eight input blocks whole, combines them pointwise and stores the result
    over the whole output block (it also loads the output block first and discards the value), so the output's
    staging buffer ends at one piece covering it: `blendOut`.
  * The proof data name each input's buffer as its block of the array the region found and the output's as
    `blendOut` of those blocks; the body obligation is the body's triple at the point's staging memrefs; the run
    is the library's one-region frame run over these.
-/
import proofs.«140690_j13065290514713_1_alg».proof.Proof.Gen.KernelIdeal.Launch
import proofs.«140690_j13065290514713_1_alg».proof.Proof.Gen.KernelIdeal.Skeleton
import proofs.«140690_j13065290514713_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Blend

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: what the nine stretches of host operations leave. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main is the host stretches, in order, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data over `V` whose body
    leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data over `V` whose body
    leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data over `V` whose body
    leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, for any proof data over `V` whose body
    leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, for any proof data over `V` whose body
    leaves the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, for any proof data over `V` whose body
    leaves the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, for any proof data over `V` whose body
    leaves the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, for any proof data over `V` whose body
    leaves the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- Neither argument is an array of the pipeline, so the frame run's post hands each back at its region-entry
    contents, which are the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's accesses: each block whole -/

abbrev rW : Rect S1x96x384 := Rect.unit (s := S1x96x384) ![0, 0, 0] S1x96x384.size inb_S1x96x384_S1x96x384_0_0_0
abbrev rI : Rect S1x96x384x16 := Rect.unit (s := S1x96x384x16) ![0, 0, 0, 0] S1x96x384x16.size inb_S1x96x384x16_S1x96x384x16_0_0_0_0

/-! ## What the body leaves in the output window's buffer -/

/-- The output block after the body, from the eight input blocks (corner blocks `x0 … x3`, weight blocks
    `x4 … x7`): its one store as one piece, the payload the body's arithmetic. -/
def blendOut (x0 x1 x2 x3 : Vec F S1x96x384x16 .f32) (x4 x5 x6 x7 : Vec F S1x96x384 .f32) : Vec F S1x96x384x16 .f32 :=
  View.canon [⟨rI, k0_pay1 (k0_pay2 (View.ld x4 rW) (View.ld x5 rW) (View.ld x6 rW) (View.ld x0 rI) (View.ld x1 rI) (View.ld x2 rI))
    (k0_pay3 (View.ld x7 rW) (View.ld x3 rI))⟩]

/-- The one store covers the block. -/
theorem blendCover (p0 : Vec F S1x96x384x16 .f32) (y : S1x96x384x16.Idx) :
    ∃ pc ∈ ([⟨rI, p0⟩] : List (View.Piece (Elt F) S1x96x384x16 .f32)), y ∈ pc.1.set :=
  View.cover_of_tiled [⟨rI, p0⟩] S1x96x384x16.size (by rfl) y

/-! ## The body's triple -/

set_option maxHeartbeats 1000000 in
/-- The body on whole staging memrefs, the inputs' at contents `xW` and the output's at anything, runs to the
    continuation with the inputs as they were and the output at `blendOut` of the inputs. -/
theorem sound_kernel (c : Dev nD) (E : Set ℕ) (i : grid0.Coords)
    (arg2 : Memref sig .tc .vmem S1x96x384x16 .f32) (harg2 : arg2.IsWhole) (arg3 : Memref sig .tc .vmem S1x96x384x16 .f32) (harg3 : arg3.IsWhole) (arg4 : Memref sig .tc .vmem S1x96x384x16 .f32) (harg4 : arg4.IsWhole) (arg5 : Memref sig .tc .vmem S1x96x384x16 .f32) (harg5 : arg5.IsWhole)
    (arg6 : Memref sig .tc .vmem S1x96x384 .f32) (harg6 : arg6.IsWhole) (arg7 : Memref sig .tc .vmem S1x96x384 .f32) (harg7 : arg7.IsWhole) (arg8 : Memref sig .tc .vmem S1x96x384 .f32) (harg8 : arg8.IsWhole) (arg9 : Memref sig .tc .vmem S1x96x384 .f32) (harg9 : arg9.IsWhole)
    (arg10 : Memref sig .tc .vmem S1x96x384x16 .f32) (harg10 : arg10.IsWhole)
    (x0 x1 x2 x3 : Vec F S1x96x384x16 .f32) (x4 x5 x6 x7 : Vec F S1x96x384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (blendOut x0 x1 x2 x3 x4 x5 x6 x7)) -∗ K ⟨⟩))
      ⊢ wp frame (wpE (defs₀ (F := F)) Variants.none c none) E (cc0__blend_kernel i arg2 harg2 arg3 harg3 arg4 harg4 arg5 harg5 arg6 harg6 arg7 harg7 arg8 harg8 arg9 harg9 arg10 harg10) K := by
  simp only [cc0__blend_kernel_eq_skeleton]; unfold cc0__blend_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (blendCover _)

/-! ## The pipeline's proof data -/

/-- The proof data on core `c`: the arrays as the region finds them; after the body at point `t` each input's
    buffer at its block and the output's at `blendOut` of the input blocks; the plain region invariant; full
    shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blendOut (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = blendOut (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant
    and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, each array of the
    pipeline ending at what the library computes from the proof data and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Blend

end
-- ==== Proof.LibBlendCast.lean ====
/-
  A weight block [1, h, w] as the blend kernel uses it against a [1, h, w, c] corner block: cast to itself,
  cast to [1, h, w, 1] (a trailing unit axis), broadcast along the trailing axis to [1, h, w, c]. Read at an
  index (b, y, x, k) of the broadcast it is the weight at (b, y, x): the trailing coordinate is dropped.
  Stated at the literal extents [1, 96, 384] and [1, 96, 384, 16].
-/
import Idealize.ShloMosaic.Lib.Pipeline.Value
import Idealize.ShloMosaic.Lib.ValueIdx

namespace BlendCast

open Idealize.ShloMosaic

/-- A weight block. -/
abbrev Sw : Shape := ⟨3, ![1, 96, 384]⟩
/-- A weight block with a trailing unit axis. -/
abbrev Sw1 : Shape := ⟨4, ![1, 96, 384, 1]⟩
/-- A corner block. -/
abbrev Si : Shape := ⟨4, ![1, 96, 384, 16]⟩

/-- The index of a weight block under an index of a corner block: the channel coordinate dropped. -/
abbrev dropChan (j : Si.Idx) : Sw.Idx := fun a => match a with
  | ⟨0, _⟩ => ⟨(j 0).val, (j 0).isLt⟩
  | ⟨1, _⟩ => ⟨(j 1).val, (j 1).isLt⟩
  | ⟨2, _⟩ => ⟨(j 2).val, (j 2).isLt⟩

/-- The index of the unit-axis block under an index of a corner block: the channel coordinate zeroed. -/
abbrev zeroChan (j : Si.Idx) : Sw1.Idx := fun a => match a with
  | ⟨0, _⟩ => ⟨0, Nat.one_pos⟩
  | ⟨1, _⟩ => ⟨(j 1).val, (j 1).isLt⟩
  | ⟨2, _⟩ => ⟨(j 2).val, (j 2).isLt⟩
  | ⟨3, _⟩ => ⟨0, Nat.one_pos⟩

/-- The weight block cast and broadcast along the channels, read at a corner-block index, is the weight at the
    index with the channel dropped. -/
theorem weight_bcast_apply {α : Type} (w : Sw.Idx → α) (h1 : Sw.ShapeCasts Sw) (h2 : Sw.ShapeCasts Sw1) (h3 : Sw1.Broadcasts Si)
    (j : Si.Idx) :
    broadcastTo Si (shapeCast Sw1 (shapeCast Sw w h1) h2) h3 j = w (dropChan j) := by
  rw [shapeCast_self]
  refine (broadcastTo_apply _ h3 j (zeroChan j) (fun a => ?_)).trans ?_
  · match a with
    | ⟨0, _⟩ => show 0 = if (1 : Nat) = 1 then 0 else _; rw [if_pos rfl]
    | ⟨1, _⟩ => show (j 1).val = if (96 : Nat) = 1 then 0 else (j 1).val; rw [if_neg (by decide)]
    | ⟨2, _⟩ => show (j 2).val = if (384 : Nat) = 1 then 0 else (j 2).val; rw [if_neg (by decide)]
    | ⟨3, _⟩ => show 0 = if (1 : Nat) = 1 then 0 else _; rw [if_pos rfl]
  · refine shapeCast_apply w h2 (zeroChan j) (dropChan j) ?_
    rw [Shape.rowMajor_val_three, Shape.rowMajor_val_four]
    have h0 : (j 0).val < 1 := (j 0).isLt
    show ((j 0).val * 96 + (j 1).val) * 384 + (j 2).val = (((0 * 96 + (j 1).val) * 384 + (j 2).val) * 1 + 0)
    omega

end BlendCast
-- ==== Proof.BlendValue.lean ====
/-
  What the blend region leaves in its result array, as one function of the eight arrays it reads.

  Grid point t = (b, h) handles batch b and rows 96h … 96h + 95: every corner window's block and the output's
  block sit at block index (b, h, 0, 0), every weight window's at (b, h, 0). The body's arithmetic at a block
  index (0, y, x, k) multiplies each weight at (0, y, x) with its corner at (0, y, x, k) and adds the four
  products left to right. So the point writes back the block of `blendArr` — the same sum taken over whole
  arrays, the weight read at the index with the channel dropped — and the 64 blocks tile the result array.
-/
import proofs.«140690_j13065290514713_1_alg».proof.Proof.BlendFrameIdeal
import proofs.«140690_j13065290514713_1_alg».proof.Proof.LibBlendCast
import Idealize.ShloMosaic.Lib.Pipeline.Value

set_option maxRecDepth 16384

noncomputable section

namespace Cert.KernelIdeal.BlendValue

open Cert.KernelIdeal Cert.KernelIdeal.Gen Cert.KernelIdeal.Blend Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The run's post, read at the result and the arguments -/

theorem post8 (r : PUnit × MemSt nD τ sig (Elt F)) (h : Pipeline.FramePost cfgs (dats m) 0 (V m) r) (c : Dev nD) :
    r.2.mem ((c : Thread nD τ).loc main_v134) = (dats m 0 c).arrAt 8 cfg0.N :=
  (h c).1 8

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-! ## The blend over whole arrays -/

/-- The index of a weight map under an index of a corner array: the channel dropped. -/
abbrev dropChanA (i : S16x384x384x16.Idx) : S16x384x384.Idx := fun a => match a with
  | ⟨0, _⟩ => ⟨(i 0).val, (i 0).isLt⟩
  | ⟨1, _⟩ => ⟨(i 1).val, (i 1).isLt⟩
  | ⟨2, _⟩ => ⟨(i 2).val, (i 2).isLt⟩

/-- The four corners weighted and added left to right, index by index. -/
def blendArr (a0 a1 a2 a3 : S16x384x384x16.Idx → Elt F .f32) (w0 w1 w2 w3 : S16x384x384.Idx → Elt F .f32) :
    S16x384x384x16.Idx → Elt F .f32 := fun i =>
  FloatOps.addf (FloatOps.addf (FloatOps.addf (FloatOps.mulf (w0 (dropChanA i)) (a0 i)) (FloatOps.mulf (w1 (dropChanA i)) (a1 i))) (FloatOps.mulf (w2 (dropChanA i)) (a2 i))) (FloatOps.mulf (w3 (dropChanA i)) (a3 i))

/-! ## The body's arithmetic at a block index -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The stored value at a block index: each weight, read with the channel dropped, times its corner; the four
    products added left to right. -/
theorem pay_apply (w0 w1 w2 w3 : Vec F S1x96x384 .f32) (a0 a1 a2 a3 : Vec F S1x96x384x16 .f32) (j : S1x96x384x16.Idx) :
    k0_pay1 (k0_pay2 w0 w1 w2 a0 a1 a2) (k0_pay3 w3 a3) j
      = FloatOps.addf (FloatOps.addf (FloatOps.addf (FloatOps.mulf (w0 (BlendCast.dropChan j)) (a0 j)) (FloatOps.mulf (w1 (BlendCast.dropChan j)) (a1 j))) (FloatOps.mulf (w2 (BlendCast.dropChan j)) (a2 j))) (FloatOps.mulf (w3 (BlendCast.dropChan j)) (a3 j)) := by
  unfold k0_pay1 k0_pay2 k0_pay3
  dsimp only
  show FloatOps.addf (FloatOps.addf (FloatOps.addf (FloatOps.mulf (broadcastTo S1x96x384x16 (shapeCast S1x96x384x1 (shapeCast S1x96x384 w0 shapeCasts_S1x96x384_S1x96x384) shapeCasts_S1x96x384_S1x96x384x1) broadcasts_S1x96x384x1_S1x96x384x16 j) (shapeCast S1x96x384x16 a0 shapeCasts_S1x96x384x16_S1x96x384x16 j)) (FloatOps.mulf (broadcastTo S1x96x384x16 (shapeCast S1x96x384x1 (shapeCast S1x96x384 w1 shapeCasts_S1x96x384_S1x96x384) shapeCasts_S1x96x384_S1x96x384x1) broadcasts_S1x96x384x1_S1x96x384x16 j) (shapeCast S1x96x384x16 a1 shapeCasts_S1x96x384x16_S1x96x384x16 j))) (FloatOps.mulf (broadcastTo S1x96x384x16 (shapeCast S1x96x384x1 (shapeCast S1x96x384 w2 shapeCasts_S1x96x384_S1x96x384) shapeCasts_S1x96x384_S1x96x384x1) broadcasts_S1x96x384x1_S1x96x384x16 j) (shapeCast S1x96x384x16 a2 shapeCasts_S1x96x384x16_S1x96x384x16 j))) (FloatOps.mulf (broadcastTo S1x96x384x16 (shapeCast S1x96x384x1 (shapeCast S1x96x384 w3 shapeCasts_S1x96x384_S1x96x384) shapeCasts_S1x96x384_S1x96x384x1) broadcasts_S1x96x384x1_S1x96x384x16 j) (shapeCast S1x96x384x16 a3 shapeCasts_S1x96x384x16_S1x96x384x16 j)) = _
  rw [BlendCast.weight_bcast_apply w0, BlendCast.weight_bcast_apply w1, BlendCast.weight_bcast_apply w2, BlendCast.weight_bcast_apply w3]
  simp only [shapeCast_self]

/-! ## The windows' block indices over the grid -/

/-- Decided over the 64 points: every input window's block index is the output's (on the axes it has), and the
    output's is (b, h, 0, 0) with b ≤ 15, h ≤ 3. -/
theorem idx_facts : ∀ t : Fin cfg0.N, win0_0.index t (0 : Fin 4) = win0_8.index t (0 : Fin 4)
    ∧ win0_0.index t (1 : Fin 4) = win0_8.index t (1 : Fin 4)
    ∧ win0_0.index t (2 : Fin 4) = win0_8.index t (2 : Fin 4)
    ∧ win0_0.index t (3 : Fin 4) = win0_8.index t (3 : Fin 4)
    ∧ win0_1.index t (0 : Fin 4) = win0_8.index t (0 : Fin 4)
    ∧ win0_1.index t (1 : Fin 4) = win0_8.index t (1 : Fin 4)
    ∧ win0_1.index t (2 : Fin 4) = win0_8.index t (2 : Fin 4)
    ∧ win0_1.index t (3 : Fin 4) = win0_8.index t (3 : Fin 4)
    ∧ win0_2.index t (0 : Fin 4) = win0_8.index t (0 : Fin 4)
    ∧ win0_2.index t (1 : Fin 4) = win0_8.index t (1 : Fin 4)
    ∧ win0_2.index t (2 : Fin 4) = win0_8.index t (2 : Fin 4)
    ∧ win0_2.index t (3 : Fin 4) = win0_8.index t (3 : Fin 4)
    ∧ win0_3.index t (0 : Fin 4) = win0_8.index t (0 : Fin 4)
    ∧ win0_3.index t (1 : Fin 4) = win0_8.index t (1 : Fin 4)
    ∧ win0_3.index t (2 : Fin 4) = win0_8.index t (2 : Fin 4)
    ∧ win0_3.index t (3 : Fin 4) = win0_8.index t (3 : Fin 4)
    ∧ win0_4.index t (0 : Fin 3) = win0_8.index t (0 : Fin 4)
    ∧ win0_4.index t (1 : Fin 3) = win0_8.index t (1 : Fin 4)
    ∧ win0_4.index t (2 : Fin 3) = win0_8.index t (2 : Fin 4)
    ∧ win0_5.index t (0 : Fin 3) = win0_8.index t (0 : Fin 4)
    ∧ win0_5.index t (1 : Fin 3) = win0_8.index t (1 : Fin 4)
    ∧ win0_5.index t (2 : Fin 3) = win0_8.index t (2 : Fin 4)
    ∧ win0_6.index t (0 : Fin 3) = win0_8.index t (0 : Fin 4)
    ∧ win0_6.index t (1 : Fin 3) = win0_8.index t (1 : Fin 4)
    ∧ win0_6.index t (2 : Fin 3) = win0_8.index t (2 : Fin 4)
    ∧ win0_7.index t (0 : Fin 3) = win0_8.index t (0 : Fin 4)
    ∧ win0_7.index t (1 : Fin 3) = win0_8.index t (1 : Fin 4)
    ∧ win0_7.index t (2 : Fin 3) = win0_8.index t (2 : Fin 4)
    ∧ win0_8.index t (0 : Fin 4) ≤ 15
    ∧ win0_8.index t (1 : Fin 4) ≤ 3
    ∧ win0_8.index t (2 : Fin 4) = 0
    ∧ win0_8.index t (3 : Fin 4) = 0 :=
  (by decide +kernel : ∀ t : Fin grid0.N, _)

/-- Every (b, h) is some point's. -/
theorem idx_onto : ∀ (q0 : Fin 16) (q1 : Fin 4), ∃ t : Fin cfg0.N, win0_8.index t = ![q0.val, q1.val, 0, 0] :=
  (by decide +kernel : ∀ (q0 : Fin 16) (q1 : Fin 4), ∃ t : Fin grid0.N, win0_8.index t = ![q0.val, q1.val, 0, 0])

/-! ## What a point writes back -/

set_option maxHeartbeats 4000000 in
/-- Over any eight arrays: the body's result on their blocks at point `t`, cut to the output's block, is block `t`
    of the blend of the arrays. (The block index facts put every input block under the output's block.) -/
theorem blend_blocks (t : Fin cfg0.N)
    (A0 A1 A2 A3 : S16x384x384x16.Idx → Elt F .f32) (A4 A5 A6 A7 : S16x384x384.Idx → Elt F .f32) :
    (cfg0.win 8).cut (grid0.coords t) (blendOut (((cfg0.win 0).blk t).view.read (Elt F) A0) (((cfg0.win 1).blk t).view.read (Elt F) A1) (((cfg0.win 2).blk t).view.read (Elt F) A2) (((cfg0.win 3).blk t).view.read (Elt F) A3) (((cfg0.win 4).blk t).view.read (Elt F) A4) (((cfg0.win 5).blk t).view.read (Elt F) A5) (((cfg0.win 6).blk t).view.read (Elt F) A6) (((cfg0.win 7).blk t).view.read (Elt F) A7))
      = ((cfg0.win 8).blk t).view.read (Elt F) (blendArr A0 A1 A2 A3 A4 A5 A6 A7) := by
  unfold blendOut
  rw [View.canon_unit_zero hz4]
  simp only [View.ld_unit_zero (S := S1x96x384x16) hz4, View.ld_unit_zero (S := S1x96x384) hz3]
  obtain ⟨e0, e1, e2, e3, e4, e5, e6, e7, e8, e9, e10, e11, e12, e13, e14, e15, e16, e17, e18, e19, e20, e21, e22, e23, e24, e25, e26, e27, e28, e29, e30, e31⟩ := idx_facts t
  funext j
  show k0_pay1 (k0_pay2 (((cfg0.win 4).blk t).view.read (Elt F) A4) (((cfg0.win 5).blk t).view.read (Elt F) A5) (((cfg0.win 6).blk t).view.read (Elt F) A6) (((cfg0.win 0).blk t).view.read (Elt F) A0) (((cfg0.win 1).blk t).view.read (Elt F) A1) (((cfg0.win 2).blk t).view.read (Elt F) A2)) (k0_pay3 (((cfg0.win 7).blk t).view.read (Elt F) A7) (((cfg0.win 3).blk t).view.read (Elt F) A3)) j = _
  refine (pay_apply (((cfg0.win 4).blk t).view.read (Elt F) A4) (((cfg0.win 5).blk t).view.read (Elt F) A5) (((cfg0.win 6).blk t).view.read (Elt F) A6) (((cfg0.win 7).blk t).view.read (Elt F) A7) (((cfg0.win 0).blk t).view.read (Elt F) A0) (((cfg0.win 1).blk t).view.read (Elt F) A1) (((cfg0.win 2).blk t).view.read (Elt F) A2) (((cfg0.win 3).blk t).view.read (Elt F) A3) j).trans ?_
  have h0 : ((cfg0.win 0).blk t).view.emb j = ((cfg0.win 8).blk t).view.emb j := by
    funext a; apply Fin.ext
    match a with
    | ⟨0, _⟩ => show win0_0.index t (0 : Fin 4) * 1 + 1 * (j 0).val = win0_8.index t (0 : Fin 4) * 1 + 1 * (j 0).val; omega
    | ⟨1, _⟩ => show win0_0.index t (1 : Fin 4) * 96 + 1 * (j 1).val = win0_8.index t (1 : Fin 4) * 96 + 1 * (j 1).val; omega
    | ⟨2, _⟩ => show win0_0.index t (2 : Fin 4) * 384 + 1 * (j 2).val = win0_8.index t (2 : Fin 4) * 384 + 1 * (j 2).val; omega
    | ⟨3, _⟩ => show win0_0.index t (3 : Fin 4) * 16 + 1 * (j 3).val = win0_8.index t (3 : Fin 4) * 16 + 1 * (j 3).val; omega
  have h1 : ((cfg0.win 1).blk t).view.emb j = ((cfg0.win 8).blk t).view.emb j := by
    funext a; apply Fin.ext
    match a with
    | ⟨0, _⟩ => show win0_1.index t (0 : Fin 4) * 1 + 1 * (j 0).val = win0_8.index t (0 : Fin 4) * 1 + 1 * (j 0).val; omega
    | ⟨1, _⟩ => show win0_1.index t (1 : Fin 4) * 96 + 1 * (j 1).val = win0_8.index t (1 : Fin 4) * 96 + 1 * (j 1).val; omega
    | ⟨2, _⟩ => show win0_1.index t (2 : Fin 4) * 384 + 1 * (j 2).val = win0_8.index t (2 : Fin 4) * 384 + 1 * (j 2).val; omega
    | ⟨3, _⟩ => show win0_1.index t (3 : Fin 4) * 16 + 1 * (j 3).val = win0_8.index t (3 : Fin 4) * 16 + 1 * (j 3).val; omega
  have h2 : ((cfg0.win 2).blk t).view.emb j = ((cfg0.win 8).blk t).view.emb j := by
    funext a; apply Fin.ext
    match a with
    | ⟨0, _⟩ => show win0_2.index t (0 : Fin 4) * 1 + 1 * (j 0).val = win0_8.index t (0 : Fin 4) * 1 + 1 * (j 0).val; omega
    | ⟨1, _⟩ => show win0_2.index t (1 : Fin 4) * 96 + 1 * (j 1).val = win0_8.index t (1 : Fin 4) * 96 + 1 * (j 1).val; omega
    | ⟨2, _⟩ => show win0_2.index t (2 : Fin 4) * 384 + 1 * (j 2).val = win0_8.index t (2 : Fin 4) * 384 + 1 * (j 2).val; omega
    | ⟨3, _⟩ => show win0_2.index t (3 : Fin 4) * 16 + 1 * (j 3).val = win0_8.index t (3 : Fin 4) * 16 + 1 * (j 3).val; omega
  have h3 : ((cfg0.win 3).blk t).view.emb j = ((cfg0.win 8).blk t).view.emb j := by
    funext a; apply Fin.ext
    match a with
    | ⟨0, _⟩ => show win0_3.index t (0 : Fin 4) * 1 + 1 * (j 0).val = win0_8.index t (0 : Fin 4) * 1 + 1 * (j 0).val; omega
    | ⟨1, _⟩ => show win0_3.index t (1 : Fin 4) * 96 + 1 * (j 1).val = win0_8.index t (1 : Fin 4) * 96 + 1 * (j 1).val; omega
    | ⟨2, _⟩ => show win0_3.index t (2 : Fin 4) * 384 + 1 * (j 2).val = win0_8.index t (2 : Fin 4) * 384 + 1 * (j 2).val; omega
    | ⟨3, _⟩ => show win0_3.index t (3 : Fin 4) * 16 + 1 * (j 3).val = win0_8.index t (3 : Fin 4) * 16 + 1 * (j 3).val; omega
  have h4 : ((cfg0.win 4).blk t).view.emb (BlendCast.dropChan j) = dropChanA (((cfg0.win 8).blk t).view.emb j) := by
    funext a; apply Fin.ext
    match a with
    | ⟨0, _⟩ => show win0_4.index t (0 : Fin 3) * 1 + 1 * (j 0).val = win0_8.index t (0 : Fin 4) * 1 + 1 * (j 0).val; omega
    | ⟨1, _⟩ => show win0_4.index t (1 : Fin 3) * 96 + 1 * (j 1).val = win0_8.index t (1 : Fin 4) * 96 + 1 * (j 1).val; omega
    | ⟨2, _⟩ => show win0_4.index t (2 : Fin 3) * 384 + 1 * (j 2).val = win0_8.index t (2 : Fin 4) * 384 + 1 * (j 2).val; omega
  have h5 : ((cfg0.win 5).blk t).view.emb (BlendCast.dropChan j) = dropChanA (((cfg0.win 8).blk t).view.emb j) := by
    funext a; apply Fin.ext
    match a with
    | ⟨0, _⟩ => show win0_5.index t (0 : Fin 3) * 1 + 1 * (j 0).val = win0_8.index t (0 : Fin 4) * 1 + 1 * (j 0).val; omega
    | ⟨1, _⟩ => show win0_5.index t (1 : Fin 3) * 96 + 1 * (j 1).val = win0_8.index t (1 : Fin 4) * 96 + 1 * (j 1).val; omega
    | ⟨2, _⟩ => show win0_5.index t (2 : Fin 3) * 384 + 1 * (j 2).val = win0_8.index t (2 : Fin 4) * 384 + 1 * (j 2).val; omega
  have h6 : ((cfg0.win 6).blk t).view.emb (BlendCast.dropChan j) = dropChanA (((cfg0.win 8).blk t).view.emb j) := by
    funext a; apply Fin.ext
    match a with
    | ⟨0, _⟩ => show win0_6.index t (0 : Fin 3) * 1 + 1 * (j 0).val = win0_8.index t (0 : Fin 4) * 1 + 1 * (j 0).val; omega
    | ⟨1, _⟩ => show win0_6.index t (1 : Fin 3) * 96 + 1 * (j 1).val = win0_8.index t (1 : Fin 4) * 96 + 1 * (j 1).val; omega
    | ⟨2, _⟩ => show win0_6.index t (2 : Fin 3) * 384 + 1 * (j 2).val = win0_8.index t (2 : Fin 4) * 384 + 1 * (j 2).val; omega
  have h7 : ((cfg0.win 7).blk t).view.emb (BlendCast.dropChan j) = dropChanA (((cfg0.win 8).blk t).view.emb j) := by
    funext a; apply Fin.ext
    match a with
    | ⟨0, _⟩ => show win0_7.index t (0 : Fin 3) * 1 + 1 * (j 0).val = win0_8.index t (0 : Fin 4) * 1 + 1 * (j 0).val; omega
    | ⟨1, _⟩ => show win0_7.index t (1 : Fin 3) * 96 + 1 * (j 1).val = win0_8.index t (1 : Fin 4) * 96 + 1 * (j 1).val; omega
    | ⟨2, _⟩ => show win0_7.index t (2 : Fin 3) * 384 + 1 * (j 2).val = win0_8.index t (2 : Fin 4) * 384 + 1 * (j 2).val; omega
  show FloatOps.addf (FloatOps.addf (FloatOps.addf (FloatOps.mulf (A4 (((cfg0.win 4).blk t).view.emb (BlendCast.dropChan j))) (A0 (((cfg0.win 0).blk t).view.emb j))) (FloatOps.mulf (A5 (((cfg0.win 5).blk t).view.emb (BlendCast.dropChan j))) (A1 (((cfg0.win 1).blk t).view.emb j)))) (FloatOps.mulf (A6 (((cfg0.win 6).blk t).view.emb (BlendCast.dropChan j))) (A2 (((cfg0.win 2).blk t).view.emb j)))) (FloatOps.mulf (A7 (((cfg0.win 7).blk t).view.emb (BlendCast.dropChan j))) (A3 (((cfg0.win 3).blk t).view.emb j)))
    = FloatOps.addf (FloatOps.addf (FloatOps.addf (FloatOps.mulf (A4 (dropChanA (((cfg0.win 8).blk t).view.emb j))) (A0 (((cfg0.win 8).blk t).view.emb j))) (FloatOps.mulf (A5 (dropChanA (((cfg0.win 8).blk t).view.emb j))) (A1 (((cfg0.win 8).blk t).view.emb j)))) (FloatOps.mulf (A6 (dropChanA (((cfg0.win 8).blk t).view.emb j))) (A2 (((cfg0.win 8).blk t).view.emb j)))) (FloatOps.mulf (A7 (dropChanA (((cfg0.win 8).blk t).view.emb j))) (A3 (((cfg0.win 8).blk t).view.emb j)))
  rw [h0, h1, h2, h3, h4, h5, h6, h7]

theorem iblk0_eq (c : Dev nD) (t : Fin cfg0.N) : iblk m c 0 t = ((cfg0.win 0).blk t).view.read (Elt F) (V m c main_v64) := rfl
theorem iblk1_eq (c : Dev nD) (t : Fin cfg0.N) : iblk m c 1 t = ((cfg0.win 1).blk t).view.read (Elt F) (V m c main_v87) := rfl
theorem iblk2_eq (c : Dev nD) (t : Fin cfg0.N) : iblk m c 2 t = ((cfg0.win 2).blk t).view.read (Elt F) (V m c main_v110) := rfl
theorem iblk3_eq (c : Dev nD) (t : Fin cfg0.N) : iblk m c 3 t = ((cfg0.win 3).blk t).view.read (Elt F) (V m c main_v133) := rfl
theorem iblk4_eq (c : Dev nD) (t : Fin cfg0.N) : iblk m c 4 t = ((cfg0.win 4).blk t).view.read (Elt F) (V m c main_v24) := rfl
theorem iblk5_eq (c : Dev nD) (t : Fin cfg0.N) : iblk m c 5 t = ((cfg0.win 5).blk t).view.read (Elt F) (V m c main_v27) := rfl
theorem iblk6_eq (c : Dev nD) (t : Fin cfg0.N) : iblk m c 6 t = ((cfg0.win 6).blk t).view.read (Elt F) (V m c main_v30) := rfl
theorem iblk7_eq (c : Dev nD) (t : Fin cfg0.N) : iblk m c 7 t = ((cfg0.win 7).blk t).view.read (Elt F) (V m c main_v33) := rfl

/-- Point `t` writes back block `t` of `blendArr` of the arrays the region found. -/
theorem flushed8_eq (c : Dev nD) (t : Fin cfg0.N) :
    (dats m 0 c).flushed 8 t = ((cfg0.win 8).blk t).view.read (Elt F) (blendArr (V m c main_v64) (V m c main_v87) (V m c main_v110) (V m c main_v133) (V m c main_v24) (V m c main_v27) (V m c main_v30) (V m c main_v33)) := by
  show (cfg0.win 8).cut (grid0.coords t) ((dats m 0 c).after 8 t) = _
  rw [after8, iblk0_eq, iblk1_eq, iblk2_eq, iblk3_eq, iblk4_eq, iblk5_eq, iblk6_eq, iblk7_eq]
  exact blend_blocks t (V m c main_v64) (V m c main_v87) (V m c main_v110) (V m c main_v133) (V m c main_v24) (V m c main_v27) (V m c main_v30) (V m c main_v33)

/-! ## The blocks tile the result array -/

theorem mem_blk8 (t : Fin cfg0.N) (i : S16x384x384x16.Idx) :
    i ∈ ((cfg0.win 8).blk t).view.set ↔ ∀ a : Fin 4, win0_8.index t a * S1x96x384x16.size a ≤ (i a).val ∧ (i a).val < win0_8.index t a * S1x96x384x16.size a + S1x96x384x16.size a := by
  show i ∈ ((View.whole main_v134).slice (win0_8.rect t)).set ↔ _
  rw [View.set_slice_whole, Rect.mem_set_unit]
  exact Iff.rfl

/-- Index (b, y, x, k) lies in the block of the point with block index (b, y / 96, 0, 0). -/
theorem covered (i : S16x384x384x16.Idx) :
    ∃ t : Fin cfg0.N, (cfg0.win 8).flush t = true ∧ i ∈ ((cfg0.win 8).blk t).view.set := by
  have hi0 : (i 0).val < 16 := (i 0).isLt
  have hi1 : (i 1).val < 384 := (i 1).isLt
  have hi2 : (i 2).val < 384 := (i 2).isLt
  have hi3 : (i 3).val < 16 := (i 3).isLt
  obtain ⟨t, ht⟩ := idx_onto ⟨(i 0).val, hi0⟩ ⟨(i 1).val / 96, by omega⟩
  have q0 : win0_8.index t (0 : Fin 4) = (i 0).val := congrFun ht 0
  have q1 : win0_8.index t (1 : Fin 4) = (i 1).val / 96 := congrFun ht 1
  have q2 : win0_8.index t (2 : Fin 4) = 0 := congrFun ht 2
  have q3 : win0_8.index t (3 : Fin 4) = 0 := congrFun ht 3
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 96 ≤ (i 1).val ∧ (i 1).val < win0_8.index t (1 : Fin 4) * 96 + 96; omega
  | ⟨2, _⟩ => show win0_8.index t (2 : Fin 4) * 384 ≤ (i 2).val ∧ (i 2).val < win0_8.index t (2 : Fin 4) * 384 + 384; omega
  | ⟨3, _⟩ => show win0_8.index t (3 : Fin 4) * 16 ≤ (i 3).val ∧ (i 3).val < win0_8.index t (3 : Fin 4) * 16 + 16; omega

/-- The result array after the run is `blendArr` of the arrays the region found. -/
theorem final8 (c : Dev nD) :
    (dats m 0 c).arrAt 8 cfg0.N = blendArr (V m c main_v64) (V m c main_v87) (V m c main_v110) (V m c main_v133) (V m c main_v24) (V m c main_v27) (V m c main_v30) (V m c main_v33) :=
  (dats m 0 c).arrAt_eq_of_cover 8 (blendArr (V m c main_v64) (V m c main_v87) (V m c main_v110) (V m c main_v133) (V m c main_v24) (V m c main_v27) (V m c main_v30) (V m c main_v33))
    (fun t _ => flushed8_eq m c t) (covered)

/-! ## The run, read -/

theorem run : θ_run defs (onTc (τ := τ) (main (F := F))) ⟨m, fun _ => 0, ρ⟩ fun r => ∀ c : Dev nD,
      r.2.mem ((c : Thread nD τ).loc main_v134) = blendArr (V m c main_v64) (V m c main_v87) (V m c main_v110) (V m c main_v133) (V m c main_v24) (V m c main_v27) (V m c main_v30) (V m c main_v33)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post8 m r h c).trans (final8 m c),
      kept_main_arg0 m r h c,
      kept_main_arg1 m r h c⟩)
    (run_main m ρ)

end Cert.KernelIdeal.BlendValue

end
-- ==== Proof.LibNary3Apply.lean ====
import Idealize.ShloMosaic.Lib.StableHlo.Run

noncomputable section

/-! # A host operation of three operands, its result with the operands as plain arguments

An operation over a literal family of three references leaves, at its result buffer, its function of the three
operands' contents. Here that value is written `apply3 f X Y Z` with the three contents as ordinary arguments, each read at
its own reference, so that a one-pass reader of a line of operations rewrites the three reads before the function is
applied to them (a function that puts its operands in a place whose type a later argument depends on, such as the piece list
of a concatenation, otherwise hides them from the reader). -/

namespace Cert.Nary3

open Idealize.ShloMosaic Idealize.ShloMosaic.StableHlo

variable {τ : Topo} {sig : RefSig} {Val : EltTy → Type} {x a b y : Ref sig .tc}

/-- A function of a family of three contents, applied to the three contents one by one. -/
def apply3 (f : ((k : Fin 3) → ((![x, a, b] : Fin 3 → Ref sig .tc) k).ty.Contents Val) → y.ty.Contents Val)
    (X : x.ty.Contents Val) (Y : a.ty.Contents Val) (Z : b.ty.Contents Val) : y.ty.Contents Val :=
  f (Fin.cons X (Fin.cons Y (Fin.cons Z (fun i => i.elim0))))

/-- The result of an operation over three literal references, the operands as plain arguments. -/
theorem nary3_result_apply
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = apply3 f (F (Proc.devRef .tc x)) (F (Proc.devRef .tc a)) (F (Proc.devRef .tc b)) := by
  unfold apply3
  rw [nary_result]; congr 1; funext k; fin_cases k <;> rfl

/-- The same, with the result reference un-indexed, for a one-pass reader. -/
theorem nary3_result_apply'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = apply3 f (F (Proc.devRef .tc x)) (F (Proc.devRef .tc a)) (F (Proc.devRef .tc b)) :=
  nary3_result_apply f hxs hy F

end Cert.Nary3

end
-- ==== Proof.LibHostRead.lean ====
import proofs.«140690_j13065290514713_1_alg».proof.Proof.LibNary3Apply

/-! # Reading a line of host operations in one pass, three-piece joins included

What a buffer holds after a literal line of host operations, as one pass of rewriting: each operation's result at its
own result reference is its function of the operands' contents, at any other reference what was there (the references
told apart by evaluation). An operation over three literal references is read with its three operands as plain
arguments (`Cert.Nary3.nary3_result_apply'`), so that the same pass goes on into the three operands; the general
lemma for a family of operands is left out, since under its binder the operand references are no literals and the pass
would stop there. -/

namespace Cert.HostRead

open Idealize.ShloMosaic Idealize.ShloMosaic.StableHlo

/-- One pass over `StableHlo.after` of a literal line of operations whose joins have three pieces. -/
macro "host_results3" : tactic =>
  `(tactic| (simp (disch := decide) only [after_cons, after_nil,
      nullary_result', unary_result', binary_result', ternary_result', quaternary_result', reshape_result', Cert.Nary3.nary3_result_apply',
      unaryIndexed_result', binaryIndexed_result',
      nullary_result_ne', unary_result_ne', binary_result_ne', ternary_result_ne', quaternary_result_ne', reshape_result_ne',
      nary_result_ne', unaryIndexed_result_ne', binaryIndexed_result_ne']))

end Cert.HostRead
-- ==== Proof.BlendHostWeights.lean ====
/-
  The four bilinear weight maps the region reads, as functions of the sampling grid: the host stretches before
  the region compute them exactly as the reference's own first operations do, so each is the reference's stage
  of the same name (the composed operations agree term by term).
-/
import proofs.«140690_j13065290514713_1_alg».proof.Proof.BlendFrameIdeal
import proofs.«140690_j13065290514713_1_alg».proof.Proof.Gen.ReferenceIdeal.Read
import proofs.«140690_j13065290514713_1_alg».proof.Proof.LibHostRead

set_option maxRecDepth 16384

noncomputable section

namespace Cert.KernelIdeal.BlendHostWeights

open Cert.KernelIdeal Cert.KernelIdeal.Gen Cert.KernelIdeal.Blend Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 4000000 in
theorem V_main_v24 (c : Dev nD) :
    (V m c main_v24 : S16x384x384.Idx → Elt F .f32)
      = Cert.ReferenceIdeal.Read.val_main_v24 (F := F) (m ((c : Thread nD τ).loc main_arg1)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  host_results3
  rfl

set_option maxHeartbeats 4000000 in
theorem V_main_v27 (c : Dev nD) :
    (V m c main_v27 : S16x384x384.Idx → Elt F .f32)
      = Cert.ReferenceIdeal.Read.val_main_v27 (F := F) (m ((c : Thread nD τ).loc main_arg1)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  host_results3
  rfl

set_option maxHeartbeats 4000000 in
theorem V_main_v30 (c : Dev nD) :
    (V m c main_v30 : S16x384x384.Idx → Elt F .f32)
      = Cert.ReferenceIdeal.Read.val_main_v30 (F := F) (m ((c : Thread nD τ).loc main_arg1)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  host_results3
  rfl

set_option maxHeartbeats 4000000 in
theorem V_main_v33 (c : Dev nD) :
    (V m c main_v33 : S16x384x384.Idx → Elt F .f32)
      = Cert.ReferenceIdeal.Read.val_main_v33 (F := F) (m ((c : Thread nD τ).loc main_arg1)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  host_results3
  rfl

end Cert.KernelIdeal.BlendHostWeights

end
-- ==== Proof.BlendHostCorners.lean ====
/-
  The four gathered corner arrays the region reads, as functions of the images and the sampling grid: the host
  stretches before the region compute them exactly as the reference's own operations do — floor, convert, clip,
  wrap negative indices, join the three index planes, gather — so each is the reference's stage of the same name.
-/
import proofs.«140690_j13065290514713_1_alg».proof.Proof.BlendFrameIdeal
import proofs.«140690_j13065290514713_1_alg».proof.Proof.Gen.ReferenceIdeal.Read
import proofs.«140690_j13065290514713_1_alg».proof.Proof.LibHostRead

set_option maxRecDepth 16384

noncomputable section

namespace Cert.KernelIdeal.BlendHostCorners

open Cert.KernelIdeal Cert.KernelIdeal.Gen Cert.KernelIdeal.Blend Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 4000000 in
theorem V_main_v64 (c : Dev nD) :
    (V m c main_v64 : S16x384x384x16.Idx → Elt F .f32)
      = Cert.ReferenceIdeal.Read.val_main_v64 (F := F) (m ((c : Thread nD τ).loc main_arg0)) (m ((c : Thread nD τ).loc main_arg1)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  host_results3
  rfl

set_option maxHeartbeats 4000000 in
theorem V_main_v87 (c : Dev nD) :
    (V m c main_v87 : S16x384x384x16.Idx → Elt F .f32)
      = Cert.ReferenceIdeal.Read.val_main_v87 (F := F) (m ((c : Thread nD τ).loc main_arg0)) (m ((c : Thread nD τ).loc main_arg1)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  host_results3
  rfl

set_option maxHeartbeats 4000000 in
theorem V_main_v110 (c : Dev nD) :
    (V m c main_v110 : S16x384x384x16.Idx → Elt F .f32)
      = Cert.ReferenceIdeal.Read.val_main_v110 (F := F) (m ((c : Thread nD τ).loc main_arg0)) (m ((c : Thread nD τ).loc main_arg1)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  host_results3
  rfl

set_option maxHeartbeats 4000000 in
theorem V_main_v133 (c : Dev nD) :
    (V m c main_v133 : S16x384x384x16.Idx → Elt F .f32)
      = Cert.ReferenceIdeal.Read.val_main_v133 (F := F) (m ((c : Thread nD τ).loc main_arg0)) (m ((c : Thread nD τ).loc main_arg1)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  host_results3
  rfl

end Cert.KernelIdeal.BlendHostCorners

end
-- ==== Proof.BlendBridge.lean ====
/-
  The region's result is the reference's result. The reference ends with fifteen host operations on the same
  eight arrays: each weight map gets a trailing unit axis and is broadcast along the channels, multiplied with its
  corner array, and the four products are added left to right. Read at an index (b, y, x, k) that is the weight at
  (b, y, x) times the corner at (b, y, x, k), summed in the kernel's own order — `blendArr` — so the two results
  are one function of the arguments, with no algebra between them.
-/
import proofs.«140690_j13065290514713_1_alg».proof.Proof.BlendValue
import proofs.«140690_j13065290514713_1_alg».proof.Proof.BlendHostWeights
import proofs.«140690_j13065290514713_1_alg».proof.Proof.BlendHostCorners

set_option maxRecDepth 16384

noncomputable section

namespace Cert.KernelIdeal.BlendBridge

open Cert.KernelIdeal Cert.KernelIdeal.Gen Cert.KernelIdeal.Blend Cert.KernelIdeal.BlendValue
open Idealize.ShloMosaic Idealize.ShloMosaic.TcCoe Idealize.SL.Sem
open Cert.ReferenceIdeal.Read

variable {F : FTy → Type} [FloatOps F]
variable (m : (ℓ : Loc nD τ sig) → Buf (Elt F) ℓ)

/-- The reference's two broadcasts of a weight map, composed, read the map with the channel dropped. -/
theorem drop_nw (i : S16x384x384x16.Idx) : idx_main_v134 (idx_main_v135 i) = dropChanA i := by
  funext a; match a with | ⟨0, _⟩ => rfl | ⟨1, _⟩ => rfl | ⟨2, _⟩ => rfl
theorem drop_ne (i : S16x384x384x16.Idx) : idx_main_v137 (idx_main_v138 i) = dropChanA i := by
  funext a; match a with | ⟨0, _⟩ => rfl | ⟨1, _⟩ => rfl | ⟨2, _⟩ => rfl
theorem drop_sw (i : S16x384x384x16.Idx) : idx_main_v141 (idx_main_v142 i) = dropChanA i := by
  funext a; match a with | ⟨0, _⟩ => rfl | ⟨1, _⟩ => rfl | ⟨2, _⟩ => rfl
theorem drop_se (i : S16x384x384x16.Idx) : idx_main_v145 (idx_main_v146 i) = dropChanA i := by
  funext a; match a with | ⟨0, _⟩ => rfl | ⟨1, _⟩ => rfl | ⟨2, _⟩ => rfl

/-- The reference's last fifteen operations, read at an index, are the blend of its eight stages. -/
theorem ref_tail (x0 : S16x512x512x16.Idx → Elt F .f32) (x1 : S16x384x384x2.Idx → Elt F .f32) :
    val_main_v148 (F := F) x0 x1
      = blendArr (val_main_v64 (F := F) x0 x1) (val_main_v87 (F := F) x0 x1) (val_main_v110 (F := F) x0 x1) (val_main_v133 (F := F) x0 x1)
          (val_main_v24 (F := F) x1) (val_main_v27 (F := F) x1) (val_main_v30 (F := F) x1) (val_main_v33 (F := F) x1) := by
  funext i
  rw [val_main_v148_apply, val_main_v144_apply, val_main_v140_apply, val_main_v136_apply, val_main_v139_apply, val_main_v143_apply, val_main_v147_apply,
    val_main_v135_apply, val_main_v134_apply, val_main_v138_apply, val_main_v137_apply, val_main_v142_apply, val_main_v141_apply, val_main_v146_apply, val_main_v145_apply,
    drop_nw, drop_ne, drop_sw, drop_se]
  rfl

/-- The region's result array is the reference's result at the same arguments. -/
theorem result_eq (c : Dev nD) :
    blendArr (V m c main_v64) (V m c main_v87) (V m c main_v110) (V m c main_v133) (V m c main_v24) (V m c main_v27) (V m c main_v30) (V m c main_v33)
      = val_main_v148 (F := F) (m ((c : Thread nD τ).loc main_arg0)) (m ((c : Thread nD τ).loc main_arg1)) := by
  rw [ref_tail]
  rw [Cert.KernelIdeal.BlendHostCorners.V_main_v64 m c, Cert.KernelIdeal.BlendHostCorners.V_main_v87 m c, Cert.KernelIdeal.BlendHostCorners.V_main_v110 m c, Cert.KernelIdeal.BlendHostCorners.V_main_v133 m c,
    Cert.KernelIdeal.BlendHostWeights.V_main_v24 m c, Cert.KernelIdeal.BlendHostWeights.V_main_v27 m c, Cert.KernelIdeal.BlendHostWeights.V_main_v30 m c, Cert.KernelIdeal.BlendHostWeights.V_main_v33 m c]

end Cert.KernelIdeal.BlendBridge

end
-- ==== Proof.lean ====
/-
  A bilinear image sampler: from a sampling grid in [-1, 1] the host computes pixel coordinates, their floors, the
  four bilinear weight maps and the four clipped corner index triples, and gathers the four corner arrays from the
  images. The kernel program then blends the corners with the weights in one pipelined region, 96 rows of one batch
  entry per grid point; the reference does the same blend with fifteen more host operations.

  Both programs run the same host operations up to the eight arrays the blend reads, so those arrays are the
  reference's stages of the same names (Proof/BlendHostWeights.lean, Proof/BlendHostCorners.lean). The region writes
  the weighted sum of the corners, added left to right, block by block over the whole result array
  (Proof/BlendFrameIdeal.lean, Proof/BlendValue.lean), and the reference's last operations read at an index are the
  same sum in the same order (Proof/BlendBridge.lean): the results agree on every extended real with no law of
  arithmetic used, and finiteness of the inputs is not needed. The word-level kernel's frame is the same
  argument read at machine words (Proof/BlendFrame.lean); the ideal pass rewrote nothing, so `preserves` is trivial.
-/
import proofs.«140690_j13065290514713_1_alg».proof.Defs
import proofs.«140690_j13065290514713_1_alg».proof.Proof.Gen.Kernel
import proofs.«140690_j13065290514713_1_alg».proof.Proof.Gen.KernelIdeal
import proofs.«140690_j13065290514713_1_alg».proof.Proof.Gen.ReferenceIdeal
import proofs.«140690_j13065290514713_1_alg».proof.Proof.Gen.Pre_finite_inputs
import proofs.«140690_j13065290514713_1_alg».proof.Proof.Gen.ReferenceIdeal.Run
import proofs.«140690_j13065290514713_1_alg».proof.Proof.Gen.ReferenceIdeal.Read
import proofs.«140690_j13065290514713_1_alg».proof.Proof.BlendFrame
import proofs.«140690_j13065290514713_1_alg».proof.Proof.BlendFrameIdeal
import proofs.«140690_j13065290514713_1_alg».proof.Proof.BlendValue
import proofs.«140690_j13065290514713_1_alg».proof.Proof.BlendBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Blend.frame m ρ

theorem frame_ki : Cert.frame_KernelIdeal := fun m ρ _ => Cert.KernelIdeal.Blend.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the blend of the eight arrays the host operations leave, which is the
    reference's last stage at the shared arguments. -/
theorem algebraic : Cert.algebraic_KernelIdeal_ReferenceIdeal := by
  intro m ρ m' ρ' _ hagree
  refine ⟨fun c => Cert.KernelIdeal.BlendValue.blendArr (Cert.KernelIdeal.Blend.V m c Cert.KernelIdeal.main_v64) (Cert.KernelIdeal.Blend.V m c Cert.KernelIdeal.main_v87) (Cert.KernelIdeal.Blend.V m c Cert.KernelIdeal.main_v110) (Cert.KernelIdeal.Blend.V m c Cert.KernelIdeal.main_v133) (Cert.KernelIdeal.Blend.V m c Cert.KernelIdeal.main_v24) (Cert.KernelIdeal.Blend.V m c Cert.KernelIdeal.main_v27) (Cert.KernelIdeal.Blend.V m c Cert.KernelIdeal.main_v30) (Cert.KernelIdeal.Blend.V m c Cert.KernelIdeal.main_v33),
    Cert.KernelIdeal.BlendValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v148_eq, (hagree c).1, (hagree c).2]
  exact (Cert.KernelIdeal.BlendBridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
